-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16x16 : Shape := ⟨2, ![16, 16]⟩
abbrev S2x65536 : Shape := ⟨2, ![2, 65536]⟩
abbrev S4096 : Shape := ⟨1, ![4096]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S512x80 : Shape := ⟨2, ![512, 80]⟩
abbrev S512 : Shape := ⟨1, ![512]⟩
abbrev S16384x512 : Shape := ⟨2, ![16384, 512]⟩
abbrev S16384 : Shape := ⟨1, ![16384]⟩
abbrev S512x256 : Shape := ⟨2, ![512, 256]⟩
abbrev S512x512 : Shape := ⟨2, ![512, 512]⟩
abbrev S1x512 : Shape := ⟨2, ![1, 512]⟩
abbrev S1 : Shape := ⟨1, ![1]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16x16 : S_.BroadcastsInDim S16x16 (![] : Fin 0 → Fin S16x16.rank)
  reducesTo_S16x16_S_d0_1 : S16x16.ReducesTo [0, 1] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S512x80 : S_.BroadcastsInDim S512x80 (![] : Fin 0 → Fin S512x80.rank)
  reducesTo_S512x80_S_d0_1 : S512x80.ReducesTo [0, 1] S_
  bcast_S_S512 : S_.BroadcastsInDim S512 (![] : Fin 0 → Fin S512.rank)
  reducesTo_S512_S_d0 : S512.ReducesTo [0] S_
  bcast_S_S16384x512 : S_.BroadcastsInDim S16384x512 (![] : Fin 0 → Fin S16384x512.rank)
  reducesTo_S16384x512_S_d0_1 : S16384x512.ReducesTo [0, 1] S_
  bcast_S_S16384 : S_.BroadcastsInDim S16384 (![] : Fin 0 → Fin S16384.rank)
  reducesTo_S16384_S_d0 : S16384.ReducesTo [0] S_
  bcast_S_S512x256 : S_.BroadcastsInDim S512x256 (![] : Fin 0 → Fin S512x256.rank)
  reducesTo_S512x256_S_d0_1 : S512x256.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg27 : FVec F S1x512 .f32) (main_arg28 : FVec F S1 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S1x512 .f32 := Host.absf main_arg27
  let main_cst_48 : FVec F S_ .f32 := constant S_ .f32 0x7F800000#32
  let main_v125 : FVec F S1x512 .f32 := broadcastInDim S1x512 ![] bcast_S_S1x512 main_cst_48
  let main_v126 : IVec S1x512 1 := cmpf .olt main_v124 main_v125
  let main_c_49 : IVec S_ 1 := constantI S_ 1 1#1
  let main_v127 : IVec S_ 1 := (fun x v => Host.reduce IntOp.andi x v reducesTo_S1x512_S_d0_1 h_S_) main_v126 main_c_49
  let main_v128 : IVec S_ 1 := andi main_v123 main_v127
  let main_v129 : FVec F S1 .f32 := Host.absf main_arg28
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg23 : FVec F S512x256 .f32) (main_arg24 : FVec F S512 .f32) (main_arg25 : FVec F S512x512 .f32) (main_arg26 : FVec F S512 .f32) (main_arg27 : FVec F S1x512 .f32) (main_arg28 : FVec F S1 .f32) (main_v98 : IVec S_ 1) (main_v101 : IVec S16384 1) (main_c_39 : IVec S_ 1) : IVec S_ 1 :=
  let main_v102 : IVec S_ 1 := (fun x v => Host.reduce IntOp.andi x v reducesTo_S16384_S_d0 h_S_) main_v101 main_c_39
  let main_v103 : IVec S_ 1 := andi main_v98 main_v102
  let main_v104 : FVec F S512x256 .f32 := Host.absf main_arg23
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  let main_v109 : FVec F S512 .f32 := Host.absf main_arg24
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x512 .f32 := Host.absf main_arg25
  let main_cst_44 : FVec F S_ .f32 := constant S_ .f32 0x7F800000#32
  let main_v115 : FVec F S512x512 .f32 := broadcastInDim S512x512 ![] bcast_S_S512x512 main_cst_44
  let main_v116 : IVec S512x512 1 := cmpf .olt main_v114 main_v115
  let main_c_45 : IVec S_ 1 := constantI S_ 1 1#1
  let main_v117 : IVec S_ 1 := (fun x v => Host.reduce IntOp.andi x v reducesTo_S512x512_S_d0_1 h_S_) main_v116 main_c_45
  let main_v118 : IVec S_ 1 := andi main_v113 main_v117
  let main_v119 : FVec F S512 .f32 := Host.absf main_arg26
  fn_part7 (F := F) main_arg27 main_arg28 main_v118 main_v119

def fn_part5 {F : FTy → Type} [FloatOps F] (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v83 : IVec S_ 1) (main_v84 : FVec F S512x80 .f32) (main_cst_32 : FVec F S_ .f32) : IVec S_ 1 :=
  let main_v85 : FVec F S512x80 .f32 := broadcastInDim S512x80 ![] bcast_S_S512x80 main_cst_32
  let main_v86 : IVec S512x80 1 := cmpf .olt main_v84 main_v85
  let main_c_33 : IVec S_ 1 := constantI S_ 1 1#1
  let main_v87 : IVec S_ 1 := (fun x v => Host.reduce IntOp.andi x v reducesTo_S512x80_S_d0_1 h_S_) main_v86 main_c_33
  let main_v88 : IVec S_ 1 := andi main_v83 main_v87
  let main_v89 : FVec F S512 .f32 := Host.absf main_arg20
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S16384x512 .f32 := Host.absf main_arg21
  let main_cst_36 : FVec F S_ .f32 := constant S_ .f32 0x7F800000#32
  let main_v95 : FVec F S16384x512 .f32 := broadcastInDim S16384x512 ![] bcast_S_S16384x512 main_cst_36
  let main_v96 : IVec S16384x512 1 := cmpf .olt main_v94 main_v95
  let main_c_37 : IVec S_ 1 := constantI S_ 1 1#1
  let main_v97 : IVec S_ 1 := (fun x v => Host.reduce IntOp.andi x v reducesTo_S16384x512_S_d0_1 h_S_) main_v96 main_c_37
  let main_v98 : IVec S_ 1 := andi main_v93 main_v97
  let main_v99 : FVec F S16384 .f32 := Host.absf main_arg22
  let main_cst_38 : FVec F S_ .f32 := constant S_ .f32 0x7F800000#32
  let main_v100 : FVec F S16384 .f32 := broadcastInDim S16384 ![] bcast_S_S16384 main_cst_38
  let main_v101 : IVec S16384 1 := cmpf .olt main_v99 main_v100
  let main_c_39 : IVec S_ 1 := constantI S_ 1 1#1
  fn_part6 (F := F) main_arg23 main_arg24 main_arg25 main_arg26 main_arg27 main_arg28 main_v98 main_v101 main_c_39

def fn_part4 {F : FTy → Type} [FloatOps F] (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S64x256 .f32 := Host.absf main_arg17
  let main_cst_28 : FVec F S_ .f32 := constant S_ .f32 0x7F800000#32
  let main_v75 : FVec F S64x256 .f32 := broadcastInDim S64x256 ![] bcast_S_S64x256 main_cst_28
  let main_v76 : IVec S64x256 1 := cmpf .olt main_v74 main_v75
  let main_c_29 : IVec S_ 1 := constantI S_ 1 1#1
  let main_v77 : IVec S_ 1 := (fun x v => Host.reduce IntOp.andi x v reducesTo_S64x256_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S512x80 .f32 := Host.absf main_arg19
  let main_cst_32 : FVec F S_ .f32 := constant S_ .f32 0x7F800000#32
  fn_part5 (F := F) main_arg20 main_arg21 main_arg22 main_arg23 main_arg24 main_arg25 main_arg26 main_arg27 main_arg28 main_v83 main_v84 main_cst_32

def fn_part3 {F : FTy → Type} [FloatOps F] (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_arg21 main_arg22 main_arg23 main_arg24 main_arg25 main_arg26 main_arg27 main_arg28 main_v63 main_v67

def fn_part2 {F : FTy → Type} [FloatOps F] (main_arg9 : FVec F S256x256 .f32) (main_arg10 : FVec F S256x256 .f32) (main_arg11 : FVec F S256 .f32) (main_arg12 : FVec F S256x256 .f32) (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg12
  let main_cst_18 : FVec F S_ .f32 := constant S_ .f32 0x7F800000#32
  let main_v50 : FVec F S256x256 .f32 := broadcastInDim S256x256 ![] bcast_S_S256x256 main_cst_18
  fn_part3 (F := F) main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg6 : FVec F S256x128 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S4096x128 .f32) (main_arg1 : FVec F S16x16 .f32) (main_arg2 : IVec S2x65536 32) (main_arg3 : IVec S4096 32) (main_arg4 : FVec F S256x128 .f32) (main_arg5 : FVec F S256 .f32) (main_arg6 : FVec F S256x128 .f32) (main_arg7 : FVec F S256x256 .f32) (main_arg8 : FVec F S256 .f32) (main_arg9 : FVec F S256x256 .f32) (main_arg10 : FVec F S256x256 .f32) (main_arg11 : FVec F S256 .f32) (main_arg12 : FVec F S256x256 .f32) (main_arg13 : FVec F S256 .f32) (main_arg14 : FVec F S256 .f32) (main_arg15 : FVec F S256x256 .f32) (main_arg16 : FVec F S256 .f32) (main_arg17 : FVec F S64x256 .f32) (main_arg18 : FVec F S64 .f32) (main_arg19 : FVec F S512x80 .f32) (main_arg20 : FVec F S512 .f32) (main_arg21 : FVec F S16384x512 .f32) (main_arg22 : FVec F S16384 .f32) (main_arg23 : FVec F S512x256 .f32) (main_arg24 : FVec F S512 .f32) (main_arg25 : FVec F S512x512 .f32) (main_arg26 : FVec F S512 .f32) (main_arg27 : FVec F S1x512 .f32) (main_arg28 : FVec F S1 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S4096x128 : Shape := ⟨2, ![4096, 128]⟩
abbrev S16x16 : Shape := ⟨2, ![16, 16]⟩
abbrev S2x65536 : Shape := ⟨2, ![2, 65536]⟩
abbrev S4096 : Shape := ⟨1, ![4096]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S512x80 : Shape := ⟨2, ![512, 80]⟩
abbrev S512 : Shape := ⟨1, ![512]⟩
abbrev S16384x512 : Shape := ⟨2, ![16384, 512]⟩
abbrev S16384 : Shape := ⟨1, ![16384]⟩
abbrev S512x256 : Shape := ⟨2, ![512, 256]⟩
abbrev S512x512 : Shape := ⟨2, ![512, 512]⟩
abbrev S1x512 : Shape := ⟨2, ![1, 512]⟩
abbrev S1 : Shape := ⟨1, ![1]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x128 : Shape := ⟨2, ![65536, 128]⟩
abbrev S4096x1 : Shape := ⟨2, ![4096, 1]⟩
abbrev S128x256 : Shape := ⟨2, ![128, 256]⟩
abbrev S4096x256 : Shape := ⟨2, ![4096, 256]⟩
abbrev S1x256 : Shape := ⟨2, ![1, 256]⟩
abbrev S65536x256 : Shape := ⟨2, ![65536, 256]⟩
abbrev S16x256 : Shape := ⟨2, ![16, 256]⟩
abbrev S256x64 : Shape := ⟨2, ![256, 64]⟩
abbrev S16x64 : Shape := ⟨2, ![16, 64]⟩
abbrev S1x64 : Shape := ⟨2, ![1, 64]⟩
abbrev S16x80 : Shape := ⟨2, ![16, 80]⟩
abbrev S80x512 : Shape := ⟨2, ![80, 512]⟩
abbrev S16x512 : Shape := ⟨2, ![16, 512]⟩
abbrev S512x16384 : Shape := ⟨2, ![512, 16384]⟩
abbrev S16x16384 : Shape := ⟨2, ![16, 16384]⟩
abbrev S1x16384 : Shape := ⟨2, ![1, 16384]⟩
abbrev S16x128x128 : Shape := ⟨3, ![16, 128, 128]⟩
abbrev S512x1 : Shape := ⟨2, ![512, 1]⟩
abbrev S1x1 : Shape := ⟨2, ![1, 1]⟩
abbrev S1x16x128 : Shape := ⟨3, ![1, 16, 128]⟩
abbrev S1x128x128 : Shape := ⟨3, ![1, 128, 128]⟩
abbrev S128x128 : Shape := ⟨2, ![128, 128]⟩
abbrev S16x128 : Shape := ⟨2, ![16, 128]⟩
abbrev S128x16 : Shape := ⟨2, ![128, 16]⟩
abbrev S128x1 : Shape := ⟨2, ![128, 1]⟩
abbrev S512x128 : Shape := ⟨2, ![512, 128]⟩
abbrev S1x128 : Shape := ⟨2, ![1, 128]⟩
abbrev S128 : Shape := ⟨1, ![128]⟩
abbrev S1x1x128 : Shape := ⟨3, ![1, 1, 128]⟩

abbrev nBuf : Space → Nat
  | .hbm => 203
  | .vmem => 12
  | .smem => 0
  | _ => 0

abbrev hbmTy0_0 (i : Nat) : BufTy := match i % 128 with
  | 0 => ⟨S4096x128, .f32⟩
  | 1 => ⟨S16x16, .f32⟩
  | 2 => ⟨S2x65536, .i32⟩
  | 3 => ⟨S4096, .i32⟩
  | 4 => ⟨S256x128, .f32⟩
  | 5 => ⟨S256, .f32⟩
  | 6 => ⟨S256x128, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256x256, .f32⟩
  | 16 => ⟨S256, .f32⟩
  | 17 => ⟨S64x256, .f32⟩
  | 18 => ⟨S64, .f32⟩
  | 19 => ⟨S512x80, .f32⟩
  | 20 => ⟨S512, .f32⟩
  | 21 => ⟨S16384x512, .f32⟩
  | 22 => ⟨S16384, .f32⟩
  | 23 => ⟨S512x256, .f32⟩
  | 24 => ⟨S512, .f32⟩
  | 25 => ⟨S512x512, .f32⟩
  | 26 => ⟨S512, .f32⟩
  | 27 => ⟨S1x512, .f32⟩
  | 28 => ⟨S1, .f32⟩
  | 29 => ⟨S1x65536, .i32⟩
  | 30 => ⟨S65536, .i32⟩
  | 31 => ⟨S1x65536, .i32⟩
  | 32 => ⟨S65536, .i32⟩
  | 33 => ⟨S_, .i32⟩
  | 34 => ⟨S65536, .i32⟩
  | 35 => ⟨S65536, .i1⟩
  | 36 => ⟨S_, .i32⟩
  | 37 => ⟨S65536, .i32⟩
  | 38 => ⟨S65536, .i32⟩
  | 39 => ⟨S65536, .i32⟩
  | 40 => ⟨S65536x1, .i32⟩
  | 41 => ⟨S65536x128, .f32⟩
  | 42 => ⟨S_, .f32⟩
  | 43 => ⟨S4096x128, .f32⟩
  | 44 => ⟨S65536x1, .i32⟩
  | 45 => ⟨S4096x128, .f32⟩
  | 46 => ⟨S_, .f32⟩
  | 47 => ⟨S65536, .f32⟩
  | 48 => ⟨S_, .f32⟩
  | 49 => ⟨S4096, .f32⟩
  | 50 => ⟨S65536x1, .i32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x128, .f32⟩
  | 57 => ⟨S4096x128, .f32⟩
  | 58 => ⟨S128x256, .f32⟩
  | 59 => ⟨S4096x256, .f32⟩
  | 60 => ⟨S1x256, .f32⟩
  | 61 => ⟨S4096x256, .f32⟩
  | 62 => ⟨S4096x256, .f32⟩
  | 63 => ⟨S128x256, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536x256, .f32⟩
  | 78 => ⟨S_, .f32⟩
  | 79 => ⟨S4096x256, .f32⟩
  | 80 => ⟨S65536x1, .i32⟩
  | 81 => ⟨S4096x256, .f32⟩
  | 82 => ⟨S_, .f32⟩
  | 83 => ⟨S65536, .f32⟩
  | 84 => ⟨S_, .f32⟩
  | 85 => ⟨S4096, .f32⟩
  | 86 => ⟨S65536x1, .i32⟩
  | 87 => ⟨S4096, .f32⟩
  | 88 => ⟨S_, .f32⟩
  | 89 => ⟨S4096, .f32⟩
  | 90 => ⟨S4096, .f32⟩
  | 91 => ⟨S4096x1, .f32⟩
  | 92 => ⟨S4096x256, .f32⟩
  | 93 => ⟨S4096x256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S256x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .i32⟩
  | 106 => ⟨S65536, .i32⟩
  | 107 => ⟨S65536, .i1⟩
  | 108 => ⟨S_, .i32⟩
  | 109 => ⟨S65536, .i32⟩
  | 110 => ⟨S65536, .i32⟩
  | 111 => ⟨S65536, .i32⟩
  | 112 => ⟨S65536x1, .i32⟩
  | 113 => ⟨S65536x256, .f32⟩
  | 114 => ⟨S_, .f32⟩
  | 115 => ⟨S4096x256, .f32⟩
  | 116 => ⟨S65536x1, .i32⟩
  | 117 => ⟨S4096x256, .f32⟩
  | 118 => ⟨S_, .f32⟩
  | 119 => ⟨S65536, .f32⟩
  | 120 => ⟨S_, .f32⟩
  | 121 => ⟨S4096, .f32⟩
  | 122 => ⟨S65536x1, .i32⟩
  | 123 => ⟨S4096, .f32⟩
  | 124 => ⟨S_, .f32⟩
  | 125 => ⟨S4096, .f32⟩
  | 126 => ⟨S4096, .f32⟩
  | 127 => ⟨S4096x1, .f32⟩
  | _ => ⟨S4096x128, .f32⟩

abbrev hbmTy0_1 (i : Nat) : BufTy := match i % 128 with
  | 0 => ⟨S4096x256, .f32⟩
  | 1 => ⟨S4096x256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S256x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S16x256, .f32⟩
  | 15 => ⟨S4096x1, .i32⟩
  | 16 => ⟨S16x256, .f32⟩
  | 17 => ⟨S_, .f32⟩
  | 18 => ⟨S_, .f32⟩
  | 19 => ⟨S_, .f32⟩
  | 20 => ⟨S16x256, .f32⟩
  | 21 => ⟨S16x256, .f32⟩
  | 22 => ⟨S1x256, .f32⟩
  | 23 => ⟨S16x256, .f32⟩
  | 24 => ⟨S16x256, .f32⟩
  | 25 => ⟨S1x256, .f32⟩
  | 26 => ⟨S16x256, .f32⟩
  | 27 => ⟨S16x256, .f32⟩
  | 28 => ⟨S256x256, .f32⟩
  | 29 => ⟨S16x256, .f32⟩
  | 30 => ⟨S1x256, .f32⟩
  | 31 => ⟨S16x256, .f32⟩
  | 32 => ⟨S16x256, .f32⟩
  | 33 => ⟨S256x64, .f32⟩
  | 34 => ⟨S16x64, .f32⟩
  | 35 => ⟨S1x64, .f32⟩
  | 36 => ⟨S16x64, .f32⟩
  | 37 => ⟨S16x64, .f32⟩
  | 38 => ⟨S16x80, .f32⟩
  | 39 => ⟨S80x512, .f32⟩
  | 40 => ⟨S16x512, .f32⟩
  | 41 => ⟨S1x512, .f32⟩
  | 42 => ⟨S16x512, .f32⟩
  | 43 => ⟨S16x512, .f32⟩
  | 44 => ⟨S_, .f32⟩
  | 45 => ⟨S16x512, .f32⟩
  | 46 => ⟨S16x512, .f32⟩
  | 47 => ⟨S512x16384, .f32⟩
  | 48 => ⟨S16x16384, .f32⟩
  | 49 => ⟨S1x16384, .f32⟩
  | 50 => ⟨S16x16384, .f32⟩
  | 51 => ⟨S16x16384, .f32⟩
  | 52 => ⟨S16x128x128, .f32⟩
  | 53 => ⟨S16x128x128, .f32⟩
  | 54 => ⟨S16x128x128, .bf16⟩
  | 55 => ⟨S16x128x128, .bf16⟩
  | 56 => ⟨S512x256, .bf16⟩
  | 57 => ⟨S512x512, .bf16⟩
  | 58 => ⟨S1x512, .bf16⟩
  | 59 => ⟨S512x1, .f32⟩
  | 60 => ⟨S512x1, .f32⟩
  | 61 => ⟨S1x1, .f32⟩
  | 62 => ⟨S16x128x128, .f32⟩
  | 63 => ⟨S128x128, .i32⟩
  | 64 => ⟨S_, .i32⟩
  | 65 => ⟨S128x128, .i32⟩
  | 66 => ⟨S128x128, .i32⟩
  | 67 => ⟨S128x128, .i32⟩
  | 68 => ⟨S128x128, .i1⟩
  | 69 => ⟨S16x128x128, .i1⟩
  | 70 => ⟨S_, .f32⟩
  | 71 => ⟨S16x128x128, .f32⟩
  | 72 => ⟨S16x128x128, .f32⟩
  | 73 => ⟨S16x128x128, .f32⟩
  | 74 => ⟨S16x128x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | .local _ .vmem, ⟨0, _⟩ => ⟨S1x16x128, .bf16⟩
  | .local _ .vmem, ⟨1, _⟩ => ⟨S1x16x128, .bf16⟩
  | .local _ .vmem, ⟨2, _⟩ => ⟨S1x128x128, .bf16⟩
  | .local _ .vmem, ⟨3, _⟩ => ⟨S1x128x128, .bf16⟩
  | .local _ .vmem, ⟨4, _⟩ => ⟨S512x256, .bf16⟩
  | .local _ .vmem, ⟨5, _⟩ => ⟨S512x1, .f32⟩
  | .local _ .vmem, ⟨6, _⟩ => ⟨S512x512, .bf16⟩
  | .local _ .vmem, ⟨7, _⟩ => ⟨S512x1, .f32⟩
  | .local _ .vmem, ⟨8, _⟩ => ⟨S1x512, .bf16⟩
  | .local _ .vmem, ⟨9, _⟩ => ⟨S1x1, .f32⟩
  | .local _ .vmem, ⟨10, _⟩ => ⟨S1x16x128, .f32⟩
  | .local _ .vmem, ⟨11, _⟩ => ⟨S1x16x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call0_cst : Ref sig .tc := ⟨.hbm, 66, rfl⟩
abbrev main_call0_v0 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_c_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_cst_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_9 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call1_cst : Ref sig .tc := ⟨.hbm, 102, rfl⟩
abbrev main_call1_v0 : Ref sig .tc := ⟨.hbm, 103, rfl⟩
abbrev main_v59 : Ref sig .tc := ⟨.hbm, 104, rfl⟩
abbrev main_c_10 : Ref sig .tc := ⟨.hbm, 105, rfl⟩
abbrev main_v60 : Ref sig .tc := ⟨.hbm, 106, rfl⟩
abbrev main_v61 : Ref sig .tc := ⟨.hbm, 107, rfl⟩
abbrev main_c_11 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call2_cst : Ref sig .tc := ⟨.hbm, 138, rfl⟩
abbrev main_call2_v0 : Ref sig .tc := ⟨.hbm, 139, rfl⟩
abbrev main_v87 : Ref sig .tc := ⟨.hbm, 140, rfl⟩
abbrev main_cst_16 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_17 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_call3_cst : Ref sig .tc := ⟨.hbm, 172, rfl⟩
abbrev main_call3_v0 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_call4_v0 : Ref sig .tc := ⟨.hbm, 191, rfl⟩
abbrev main_call4_c : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_v5 : Ref sig .tc := ⟨.hbm, 197, rfl⟩
abbrev main_call4_cst : Ref sig .tc := ⟨.hbm, 198, rfl⟩
abbrev main_call4_v6 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S256x128_S128x256_1_0 : S256x128.Transposes [1, 0] S128x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  transposes_S256x256_S256x256_1_0 : S256x256.Transposes [1, 0] S256x256
  bcast_S_S16x256 : S_.BroadcastsInDim S16x256 (![] : Fin 0 → Fin S16x256.rank)
  bcast_S1x256_S16x256_0_1 : S1x256.BroadcastsInDim S16x256 (![0, 1] : Fin 2 → Fin S16x256.rank)
  transposes_S64x256_S256x64_1_0 : S64x256.Transposes [1, 0] S256x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  concatenates_S16x64_S16x16_S16x80_d1 : Shape.Concatenates [S16x64, S16x16] S16x80 1
  transposes_S512x80_S80x512_1_0 : S512x80.Transposes [1, 0] S80x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  transposes_S16384x512_S512x16384_1_0 : S16384x512.Transposes [1, 0] S512x16384
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  shapeCasts_S16x16384_S16x128x128 : S16x16384.ShapeCasts S16x128x128
  transposes_S16x128x128_S16x128x128_0_2_1 : S16x128x128.Transposes [0, 2, 1] S16x128x128
  bitsLt_bf16_f32 : FTy.bits .bf16 < FTy.bits .f32
  shapeCasts_S512_S512x1 : S512.ShapeCasts S512x1
  shapeCasts_S1_S1x1 : S1.ShapeCasts S1x1
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  transposes_S16x128_p1_0_S128x16 : S16x128.Transposes [1, 0] S128x16
  slices_S128x16_o0_0_S128x1 : S128x16.Slices ![0, 0] S128x1
  shapeCasts_S128x1_S128x1 : S128x1.ShapeCasts S128x1
  broadcasts_S128x1_S128x128 : S128x1.Broadcasts S128x128
  concatenates_S128x128_S128x128_S256x128_d0 : Shape.Concatenates [S128x128, S128x128] S256x128 0
  broadcasts_S512x1_S512x128 : S512x1.Broadcasts S512x128
  broadcasts_S1x1_S1x128 : S1x1.Broadcasts S1x128
  shapeCasts_S1x128_S128 : S1x128.ShapeCasts S128
  inb_S1x16x128_S1x1x128_0_0_0 : ∀ a, (![0, 0, 0] : Fin 3 → Nat) a + S1x1x128.size a ≤ S1x16x128.size a
  h_S1x1x128 : 0 < S1x1x128.numel
  shapeCasts_S1x1x128_S128 : S1x1x128.ShapeCasts S128
  shapeCasts_S128_S1x1x128 : S128.ShapeCasts S1x1x128
  slices_S128x16_o0_1_S128x1 : S128x16.Slices ![0, 1] S128x1
  inb_S1x16x128_S1x1x128_0_1_0 : ∀ a, (![0, 1, 0] : Fin 3 → Nat) a + S1x1x128.size a ≤ S1x16x128.size a
  slices_S128x16_o0_2_S128x1 : S128x16.Slices ![0, 2] S128x1
  inb_S1x16x128_S1x1x128_0_2_0 : ∀ a, (![0, 2, 0] : Fin 3 → Nat) a + S1x1x128.size a ≤ S1x16x128.size a
  slices_S128x16_o0_3_S128x1 : S128x16.Slices ![0, 3] S128x1
  inb_S1x16x128_S1x1x128_0_3_0 : ∀ a, (![0, 3, 0] : Fin 3 → Nat) a + S1x1x128.size a ≤ S1x16x128.size a
  slices_S128x16_o0_4_S128x1 : S128x16.Slices ![0, 4] S128x1
  inb_S1x16x128_S1x1x128_0_4_0 : ∀ a, (![0, 4, 0] : Fin 3 → Nat) a + S1x1x128.size a ≤ S1x16x128.size a
  slices_S128x16_o0_5_S128x1 : S128x16.Slices ![0, 5] S128x1
  inb_S1x16x128_S1x1x128_0_5_0 : ∀ a, (![0, 5, 0] : Fin 3 → Nat) a + S1x1x128.size a ≤ S1x16x128.size a
  slices_S128x16_o0_6_S128x1 : S128x16.Slices ![0, 6] S128x1
  inb_S1x16x128_S1x1x128_0_6_0 : ∀ a, (![0, 6, 0] : Fin 3 → Nat) a + S1x1x128.size a ≤ S1x16x128.size a
  slices_S128x16_o0_7_S128x1 : S128x16.Slices ![0, 7] S128x1
  inb_S1x16x128_S1x1x128_0_7_0 : ∀ a, (![0, 7, 0] : Fin 3 → Nat) a + S1x1x128.size a ≤ S1x16x128.size a
  slices_S128x16_o0_8_S128x1 : S128x16.Slices ![0, 8] S128x1
  inb_S1x16x128_S1x1x128_0_8_0 : ∀ a, (![0, 8, 0] : Fin 3 → Nat) a + S1x1x128.size a ≤ S1x16x128.size a
  slices_S128x16_o0_9_S128x1 : S128x16.Slices ![0, 9] S128x1
  inb_S1x16x128_S1x1x128_0_9_0 : ∀ a, (![0, 9, 0] : Fin 3 → Nat) a + S1x1x128.size a ≤ S1x16x128.size a
  slices_S128x16_o0_10_S128x1 : S128x16.Slices ![0, 10] S128x1
  inb_S1x16x128_S1x1x128_0_10_0 : ∀ a, (![0, 10, 0] : Fin 3 → Nat) a + S1x1x128.size a ≤ S1x16x128.size a
  slices_S128x16_o0_11_S128x1 : S128x16.Slices ![0, 11] S128x1
  inb_S1x16x128_S1x1x128_0_11_0 : ∀ a, (![0, 11, 0] : Fin 3 → Nat) a + S1x1x128.size a ≤ S1x16x128.size a
  slices_S128x16_o0_12_S128x1 : S128x16.Slices ![0, 12] S128x1
  inb_S1x16x128_S1x1x128_0_12_0 : ∀ a, (![0, 12, 0] : Fin 3 → Nat) a + S1x1x128.size a ≤ S1x16x128.size a
  slices_S128x16_o0_13_S128x1 : S128x16.Slices ![0, 13] S128x1
  inb_S1x16x128_S1x1x128_0_13_0 : ∀ a, (![0, 13, 0] : Fin 3 → Nat) a + S1x1x128.size a ≤ S1x16x128.size a
  slices_S128x16_o0_14_S128x1 : S128x16.Slices ![0, 14] S128x1
  inb_S1x16x128_S1x1x128_0_14_0 : ∀ a, (![0, 14, 0] : Fin 3 → Nat) a + S1x1x128.size a ≤ S1x16x128.size a
  slices_S128x16_o0_15_S128x1 : S128x16.Slices ![0, 15] S128x1
  inb_S1x16x128_S1x1x128_0_15_0 : ∀ a, (![0, 15, 0] : Fin 3 → Nat) a + S1x1x128.size a ≤ S1x16x128.size a
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  bcast_S_S16x128x128 : S_.BroadcastsInDim S16x128x128 (![] : Fin 0 → Fin S16x128x128.rank)
  gather_S4096x128_S65536x1_S65536x128_1_0_n_n_0_1_1128_wf : GatherDims.WF S4096x128 S65536x1 S65536x128 [1] [0] [] [0] [] 1 ![1, 128]
  scatter_S4096x128_S65536x1_S65536x128_1_0_0_1_wf : ScatterDims.WF S4096x128 S65536x1 S65536x128 [1] [0] [0] 1
  scatter_S4096_S65536x1_S65536_n_0_0_1_wf : ScatterDims.WF S4096 S65536x1 S65536 [] [0] [0] 1
  dot_S4096x128_S128x256_S4096x256_1_0_0_1_n_n_wf : DotDims.WF S4096x128 S128x256 S4096x256 [1] [0] [0] [1] [] []
  gather_S4096x256_S65536x1_S65536x256_1_0_n_n_0_1_1256_wf : GatherDims.WF S4096x256 S65536x1 S65536x256 [1] [0] [] [0] [] 1 ![1, 256]
  scatter_S4096x256_S65536x1_S65536x256_1_0_0_1_wf : ScatterDims.WF S4096x256 S65536x1 S65536x256 [1] [0] [0] 1
  dot_S4096x256_S256x256_S4096x256_1_0_0_1_n_n_wf : DotDims.WF S4096x256 S256x256 S4096x256 [1] [0] [0] [1] [] []
  scatter_S16x256_S4096x1_S4096x256_1_0_0_1_wf : ScatterDims.WF S16x256 S4096x1 S4096x256 [1] [0] [0] 1
  dot_S16x256_S256x256_S16x256_1_0_0_1_n_n_wf : DotDims.WF S16x256 S256x256 S16x256 [1] [0] [0] [1] [] []
  dot_S16x256_S256x64_S16x64_1_0_0_1_n_n_wf : DotDims.WF S16x256 S256x64 S16x64 [1] [0] [0] [1] [] []
  dot_S16x80_S80x512_S16x512_1_0_0_1_n_n_wf : DotDims.WF S16x80 S80x512 S16x512 [1] [0] [0] [1] [] []
  dot_S16x512_S512x16384_S16x16384_1_0_0_1_n_n_wf : DotDims.WF S16x512 S512x16384 S16x16384 [1] [0] [0] [1] [] []
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  dot_S1x512_S512x128_S1x128_1_0_0_1_n_n_wf : DotDims.WF S1x512 S512x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128.size a ≤ S16x128x128.size a
  hwx0_0 : ∀ i : grid0.Coords, EltTy.bits .bf16 = 32 ∨ (Rect.block (s := S16x128x128) S1x16x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .bf16 = 32 ∨ (Rect.block (s := S16x128x128) S1x128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S512x1.size a
  hwx0_5 : ∀ i : grid0.Coords, EltTy.bits .f32 = 32 ∨ (Rect.block (s := S512x1) S512x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .bf16 = 32 ∨ (Rect.block (s := S1x512) S1x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x128.size a ≤ S16x128x128.size a
  hwx0_8 : ∀ i : grid0.Coords, EltTy.bits .f32 = 32 ∨ (Rect.block (s := S16x128x128) S1x16x128.size (cc0_transform_8 i) (hinb0_8 i)).WholeWords (EltTy.packing .f32)

variable [Facts₀]

def gather_S4096x128_S65536x1_S65536x128_1_0_n_n_0_1_1128 : GatherDims S4096x128 S65536x1 S65536x128 where
  offsetDims := [1]
  collapsedSliceDims := [0]
  operandBatchingDims := []
  startIndicesBatchingDims := []
  startIndexMap := [0]
  indexVectorDim := 1
  sliceSizes := ![1, 128]
  wf := gather_S4096x128_S65536x1_S65536x128_1_0_n_n_0_1_1128_wf
def scatter_S4096x128_S65536x1_S65536x128_1_0_0_1 : ScatterDims S4096x128 S65536x1 S65536x128 where
  updateWindowDims := [1]
  insertedWindowDims := [0]
  scatterDimsToOperandDims := [0]
  indexVectorDim := 1
  wf := scatter_S4096x128_S65536x1_S65536x128_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S4096x256_S65536x1_S65536x256_1_0_0_1 : ScatterDims S4096x256 S65536x1 S65536x256 where
  updateWindowDims := [1]
  insertedWindowDims := [0]
  scatterDimsToOperandDims := [0]
  indexVectorDim := 1
  wf := scatter_S4096x256_S65536x1_S65536x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S16x256_S4096x1_S4096x256_1_0_0_1 : ScatterDims S16x256 S4096x1 S4096x256 where
  updateWindowDims := [1]
  insertedWindowDims := [0]
  scatterDimsToOperandDims := [0]
  indexVectorDim := 1
  wf := scatter_S16x256_S4096x1_S4096x256_1_0_0_1_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x80_S80x512_S16x512_1_0_0_1_n_n : DotDims S16x80 S80x512 S16x512 where
  lhsContracting := [1]
  rhsContracting := [0]
  lhsNonContracting := [0]
  rhsNonContracting := [1]
  lhsBatch := []
  rhsBatch := []
  wf := dot_S16x80_S80x512_S16x512_1_0_0_1_n_n_wf
def dot_S16x512_S512x16384_S16x16384_1_0_0_1_n_n : DotDims S16x512 S512x16384 S16x16384 where
  lhsContracting := [1]
  rhsContracting := [0]
  lhsNonContracting := [0]
  rhsNonContracting := [1]
  lhsBatch := []
  rhsBatch := []
  wf := dot_S16x512_S512x16384_S16x16384_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

abbrev win0_0 : Pipeline.Window sig grid0 :=
  Pipeline.Window.ofSpec (Memref.whole main_v125) S1x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v126) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v127) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v130) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v128) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v131) S512x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v129) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v132) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v133) S1x16x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x128 : Shape := ⟨2, ![4096, 128]⟩
abbrev S16x16 : Shape := ⟨2, ![16, 16]⟩
abbrev S2x65536 : Shape := ⟨2, ![2, 65536]⟩
abbrev S4096 : Shape := ⟨1, ![4096]⟩
abbrev S256x128 : Shape := ⟨2, ![256, 128]⟩
abbrev S256 : Shape := ⟨1, ![256]⟩
abbrev S256x256 : Shape := ⟨2, ![256, 256]⟩
abbrev S64x256 : Shape := ⟨2, ![64, 256]⟩
abbrev S64 : Shape := ⟨1, ![64]⟩
abbrev S512x80 : Shape := ⟨2, ![512, 80]⟩
abbrev S512 : Shape := ⟨1, ![512]⟩
abbrev S16384x512 : Shape := ⟨2, ![16384, 512]⟩
abbrev S16384 : Shape := ⟨1, ![16384]⟩
abbrev S512x256 : Shape := ⟨2, ![512, 256]⟩
abbrev S512x512 : Shape := ⟨2, ![512, 512]⟩
abbrev S1x512 : Shape := ⟨2, ![1, 512]⟩
abbrev S1 : Shape := ⟨1, ![1]⟩
abbrev S1x65536 : Shape := ⟨2, ![1, 65536]⟩
abbrev S65536 : Shape := ⟨1, ![65536]⟩
abbrev S_ : Shape := ⟨0, ![]⟩
abbrev S65536x1 : Shape := ⟨2, ![65536, 1]⟩
abbrev S65536x128 : Shape := ⟨2, ![65536, 128]⟩
abbrev S4096x1 : Shape := ⟨2, ![4096, 1]⟩
abbrev S128x256 : Shape := ⟨2, ![128, 256]⟩
abbrev S4096x256 : Shape := ⟨2, ![4096, 256]⟩
abbrev S1x256 : Shape := ⟨2, ![1, 256]⟩
abbrev S65536x256 : Shape := ⟨2, ![65536, 256]⟩
abbrev S16x256 : Shape := ⟨2, ![16, 256]⟩
abbrev S256x64 : Shape := ⟨2, ![256, 64]⟩
abbrev S16x64 : Shape := ⟨2, ![16, 64]⟩
abbrev S1x64 : Shape := ⟨2, ![1, 64]⟩
abbrev S16x80 : Shape := ⟨2, ![16, 80]⟩
abbrev S80x512 : Shape := ⟨2, ![80, 512]⟩
abbrev S16x512 : Shape := ⟨2, ![16, 512]⟩
abbrev S512x16384 : Shape := ⟨2, ![512, 16384]⟩
abbrev S16x16384 : Shape := ⟨2, ![16, 16384]⟩
abbrev S1x16384 : Shape := ⟨2, ![1, 16384]⟩
abbrev S16x128x128 : Shape := ⟨3, ![16, 128, 128]⟩
abbrev S16x128x1x128 : Shape := ⟨4, ![16, 128, 1, 128]⟩
abbrev S16x128x128x128 : Shape := ⟨4, ![16, 128, 128, 128]⟩
abbrev S16x1x128x128 : Shape := ⟨4, ![16, 1, 128, 128]⟩
abbrev S16x128x128x256 : Shape := ⟨4, ![16, 128, 128, 256]⟩
abbrev S16x128x128x512 : Shape := ⟨4, ![16, 128, 128, 512]⟩
abbrev S1x1x1x512 : Shape := ⟨4, ![1, 1, 1, 512]⟩
abbrev S16x128x128x1 : Shape := ⟨4, ![16, 128, 128, 1]⟩
abbrev S1x1x1x1 : Shape := ⟨4, ![1, 1, 1, 1]⟩
abbrev S128x128 : Shape := ⟨2, ![128, 128]⟩

abbrev nBuf : Space → Nat
  | .hbm => 217
  | .vmem => 0
  | .smem => 0
  | _ => 0

abbrev hbmTy0_0 (i : Nat) : BufTy := match i % 128 with
  | 0 => ⟨S4096x128, .f32⟩
  | 1 => ⟨S16x16, .f32⟩
  | 2 => ⟨S2x65536, .i32⟩
  | 3 => ⟨S4096, .i32⟩
  | 4 => ⟨S256x128, .f32⟩
  | 5 => ⟨S256, .f32⟩
  | 6 => ⟨S256x128, .f32⟩
  | 7 => ⟨S256x256, .f32⟩
  | 8 => ⟨S256, .f32⟩
  | 9 => ⟨S256x256, .f32⟩
  | 10 => ⟨S256x256, .f32⟩
  | 11 => ⟨S256, .f32⟩
  | 12 => ⟨S256x256, .f32⟩
  | 13 => ⟨S256, .f32⟩
  | 14 => ⟨S256, .f32⟩
  | 15 => ⟨S256x256, .f32⟩
  | 16 => ⟨S256, .f32⟩
  | 17 => ⟨S64x256, .f32⟩
  | 18 => ⟨S64, .f32⟩
  | 19 => ⟨S512x80, .f32⟩
  | 20 => ⟨S512, .f32⟩
  | 21 => ⟨S16384x512, .f32⟩
  | 22 => ⟨S16384, .f32⟩
  | 23 => ⟨S512x256, .f32⟩
  | 24 => ⟨S512, .f32⟩
  | 25 => ⟨S512x512, .f32⟩
  | 26 => ⟨S512, .f32⟩
  | 27 => ⟨S1x512, .f32⟩
  | 28 => ⟨S1, .f32⟩
  | 29 => ⟨S1x65536, .i32⟩
  | 30 => ⟨S65536, .i32⟩
  | 31 => ⟨S1x65536, .i32⟩
  | 32 => ⟨S65536, .i32⟩
  | 33 => ⟨S_, .i32⟩
  | 34 => ⟨S65536, .i32⟩
  | 35 => ⟨S65536, .i1⟩
  | 36 => ⟨S_, .i32⟩
  | 37 => ⟨S65536, .i32⟩
  | 38 => ⟨S65536, .i32⟩
  | 39 => ⟨S65536, .i32⟩
  | 40 => ⟨S65536x1, .i32⟩
  | 41 => ⟨S65536x128, .f32⟩
  | 42 => ⟨S_, .f32⟩
  | 43 => ⟨S4096x128, .f32⟩
  | 44 => ⟨S65536x1, .i32⟩
  | 45 => ⟨S4096x128, .f32⟩
  | 46 => ⟨S_, .f32⟩
  | 47 => ⟨S65536, .f32⟩
  | 48 => ⟨S_, .f32⟩
  | 49 => ⟨S4096, .f32⟩
  | 50 => ⟨S65536x1, .i32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x128, .f32⟩
  | 57 => ⟨S4096x128, .f32⟩
  | 58 => ⟨S128x256, .f32⟩
  | 59 => ⟨S4096x256, .f32⟩
  | 60 => ⟨S1x256, .f32⟩
  | 61 => ⟨S4096x256, .f32⟩
  | 62 => ⟨S4096x256, .f32⟩
  | 63 => ⟨S128x256, .f32⟩
  | 64 => ⟨S4096x256, .f32⟩
  | 65 => ⟨S4096x256, .f32⟩
  | 66 => ⟨S_, .f32⟩
  | 67 => ⟨S4096x256, .f32⟩
  | 68 => ⟨S4096x256, .f32⟩
  | 69 => ⟨S_, .i32⟩
  | 70 => ⟨S65536, .i32⟩
  | 71 => ⟨S65536, .i1⟩
  | 72 => ⟨S_, .i32⟩
  | 73 => ⟨S65536, .i32⟩
  | 74 => ⟨S65536, .i32⟩
  | 75 => ⟨S65536, .i32⟩
  | 76 => ⟨S65536x1, .i32⟩
  | 77 => ⟨S65536x256, .f32⟩
  | 78 => ⟨S_, .f32⟩
  | 79 => ⟨S4096x256, .f32⟩
  | 80 => ⟨S65536x1, .i32⟩
  | 81 => ⟨S4096x256, .f32⟩
  | 82 => ⟨S_, .f32⟩
  | 83 => ⟨S65536, .f32⟩
  | 84 => ⟨S_, .f32⟩
  | 85 => ⟨S4096, .f32⟩
  | 86 => ⟨S65536x1, .i32⟩
  | 87 => ⟨S4096, .f32⟩
  | 88 => ⟨S_, .f32⟩
  | 89 => ⟨S4096, .f32⟩
  | 90 => ⟨S4096, .f32⟩
  | 91 => ⟨S4096x1, .f32⟩
  | 92 => ⟨S4096x256, .f32⟩
  | 93 => ⟨S4096x256, .f32⟩
  | 94 => ⟨S256x256, .f32⟩
  | 95 => ⟨S4096x256, .f32⟩
  | 96 => ⟨S1x256, .f32⟩
  | 97 => ⟨S4096x256, .f32⟩
  | 98 => ⟨S4096x256, .f32⟩
  | 99 => ⟨S256x256, .f32⟩
  | 100 => ⟨S4096x256, .f32⟩
  | 101 => ⟨S4096x256, .f32⟩
  | 102 => ⟨S_, .f32⟩
  | 103 => ⟨S4096x256, .f32⟩
  | 104 => ⟨S4096x256, .f32⟩
  | 105 => ⟨S_, .i32⟩
  | 106 => ⟨S65536, .i32⟩
  | 107 => ⟨S65536, .i1⟩
  | 108 => ⟨S_, .i32⟩
  | 109 => ⟨S65536, .i32⟩
  | 110 => ⟨S65536, .i32⟩
  | 111 => ⟨S65536, .i32⟩
  | 112 => ⟨S65536x1, .i32⟩
  | 113 => ⟨S65536x256, .f32⟩
  | 114 => ⟨S_, .f32⟩
  | 115 => ⟨S4096x256, .f32⟩
  | 116 => ⟨S65536x1, .i32⟩
  | 117 => ⟨S4096x256, .f32⟩
  | 118 => ⟨S_, .f32⟩
  | 119 => ⟨S65536, .f32⟩
  | 120 => ⟨S_, .f32⟩
  | 121 => ⟨S4096, .f32⟩
  | 122 => ⟨S65536x1, .i32⟩
  | 123 => ⟨S4096, .f32⟩
  | 124 => ⟨S_, .f32⟩
  | 125 => ⟨S4096, .f32⟩
  | 126 => ⟨S4096, .f32⟩
  | 127 => ⟨S4096x1, .f32⟩
  | _ => ⟨S4096x128, .f32⟩

abbrev hbmTy0_1 (i : Nat) : BufTy := match i % 128 with
  | 0 => ⟨S4096x256, .f32⟩
  | 1 => ⟨S4096x256, .f32⟩
  | 2 => ⟨S256x256, .f32⟩
  | 3 => ⟨S4096x256, .f32⟩
  | 4 => ⟨S1x256, .f32⟩
  | 5 => ⟨S4096x256, .f32⟩
  | 6 => ⟨S4096x256, .f32⟩
  | 7 => ⟨S256x256, .f32⟩
  | 8 => ⟨S4096x256, .f32⟩
  | 9 => ⟨S4096x256, .f32⟩
  | 10 => ⟨S_, .f32⟩
  | 11 => ⟨S4096x256, .f32⟩
  | 12 => ⟨S4096x256, .f32⟩
  | 13 => ⟨S_, .f32⟩
  | 14 => ⟨S16x256, .f32⟩
  | 15 => ⟨S4096x1, .i32⟩
  | 16 => ⟨S16x256, .f32⟩
  | 17 => ⟨S_, .f32⟩
  | 18 => ⟨S_, .f32⟩
  | 19 => ⟨S_, .f32⟩
  | 20 => ⟨S16x256, .f32⟩
  | 21 => ⟨S16x256, .f32⟩
  | 22 => ⟨S1x256, .f32⟩
  | 23 => ⟨S16x256, .f32⟩
  | 24 => ⟨S16x256, .f32⟩
  | 25 => ⟨S1x256, .f32⟩
  | 26 => ⟨S16x256, .f32⟩
  | 27 => ⟨S16x256, .f32⟩
  | 28 => ⟨S256x256, .f32⟩
  | 29 => ⟨S16x256, .f32⟩
  | 30 => ⟨S1x256, .f32⟩
  | 31 => ⟨S16x256, .f32⟩
  | 32 => ⟨S16x256, .f32⟩
  | 33 => ⟨S256x64, .f32⟩
  | 34 => ⟨S16x64, .f32⟩
  | 35 => ⟨S1x64, .f32⟩
  | 36 => ⟨S16x64, .f32⟩
  | 37 => ⟨S16x64, .f32⟩
  | 38 => ⟨S16x80, .f32⟩
  | 39 => ⟨S80x512, .f32⟩
  | 40 => ⟨S16x512, .f32⟩
  | 41 => ⟨S1x512, .f32⟩
  | 42 => ⟨S16x512, .f32⟩
  | 43 => ⟨S16x512, .f32⟩
  | 44 => ⟨S_, .f32⟩
  | 45 => ⟨S16x512, .f32⟩
  | 46 => ⟨S16x512, .f32⟩
  | 47 => ⟨S512x16384, .f32⟩
  | 48 => ⟨S16x16384, .f32⟩
  | 49 => ⟨S1x16384, .f32⟩
  | 50 => ⟨S16x16384, .f32⟩
  | 51 => ⟨S16x16384, .f32⟩
  | 52 => ⟨S16x128x128, .f32⟩
  | 53 => ⟨S16x128x1x128, .f32⟩
  | 54 => ⟨S16x128x128x128, .f32⟩
  | 55 => ⟨S16x1x128x128, .f32⟩
  | 56 => ⟨S16x128x128x128, .f32⟩
  | 57 => ⟨S16x128x128x256, .f32⟩
  | 58 => ⟨S16x128x128x512, .f32⟩
  | 59 => ⟨S1x1x1x512, .f32⟩
  | 60 => ⟨S16x128x128x512, .f32⟩
  | 61 => ⟨S16x128x128x512, .f32⟩
  | 62 => ⟨S_, .f32⟩
  | 63 => ⟨S16x128x128x512, .f32⟩
  | 64 => ⟨S16x128x128x512, .f32⟩
  | 65 => ⟨S16x128x128x512, .f32⟩
  | 66 => ⟨S1x1x1x512, .f32⟩
  | 67 => ⟨S16x128x128x512, .f32⟩
  | 68 => ⟨S16x128x128x512, .f32⟩
  | 69 => ⟨S_, .f32⟩
  | 70 => ⟨S16x128x128x512, .f32⟩
  | 71 => ⟨S16x128x128x512, .f32⟩
  | 72 => ⟨S16x128x128x1, .f32⟩
  | 73 => ⟨S1x1x1x1, .f32⟩
  | 74 => ⟨S16x128x128x1, .f32⟩
  | 75 => ⟨S16x128x128x1, .f32⟩
  | 76 => ⟨S16x128x128, .f32⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S16x128x128, .i1⟩
  | 84 => ⟨S_, .f32⟩
  | 85 => ⟨S16x128x128, .f32⟩
  | 86 => ⟨S16x128x128, .f32⟩
  | 87 => ⟨S16x128x128, .f32⟩
  | 88 => ⟨S16x128x128, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_cst_3 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_call0_cst : Ref sig .tc := ⟨.hbm, 66, rfl⟩
abbrev main_call0_v0 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_c_5 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_7 : Ref sig .tc := ⟨.hbm, 82, rfl⟩
abbrev main_v42 : Ref sig .tc := ⟨.hbm, 83, rfl⟩
abbrev main_cst_8 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_9 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_call1_cst : Ref sig .tc := ⟨.hbm, 102, rfl⟩
abbrev main_call1_v0 : Ref sig .tc := ⟨.hbm, 103, rfl⟩
abbrev main_v59 : Ref sig .tc := ⟨.hbm, 104, rfl⟩
abbrev main_c_10 : Ref sig .tc := ⟨.hbm, 105, rfl⟩
abbrev main_v60 : Ref sig .tc := ⟨.hbm, 106, rfl⟩
abbrev main_v61 : Ref sig .tc := ⟨.hbm, 107, rfl⟩
abbrev main_c_11 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_12 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_call2_cst : Ref sig .tc := ⟨.hbm, 138, rfl⟩
abbrev main_call2_v0 : Ref sig .tc := ⟨.hbm, 139, rfl⟩
abbrev main_v87 : Ref sig .tc := ⟨.hbm, 140, rfl⟩
abbrev main_cst_16 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_cst_17 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_call3_cst : Ref sig .tc := ⟨.hbm, 172, rfl⟩
abbrev main_call3_v0 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_call4_cst : Ref sig .tc := ⟨.hbm, 190, rfl⟩
abbrev main_call4_v0 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_call5_cst : Ref sig .tc := ⟨.hbm, 197, rfl⟩
abbrev main_call5_v0 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_v143 : Ref sig .tc := ⟨.hbm, 204, rfl⟩
abbrev main_call6_v0 : Ref sig .tc := ⟨.hbm, 205, rfl⟩
abbrev main_call6_c : Ref sig .tc := ⟨.hbm, 206, rfl⟩
abbrev main_call6_v1 : Ref sig .tc := ⟨.hbm, 207, rfl⟩
abbrev main_call6_v2 : Ref sig .tc := ⟨.hbm, 208, rfl⟩
abbrev main_call6_v3 : Ref sig .tc := ⟨.hbm, 209, rfl⟩
abbrev main_call6_v4 : Ref sig .tc := ⟨.hbm, 210, rfl⟩
abbrev main_call6_v5 : Ref sig .tc := ⟨.hbm, 211, rfl⟩
abbrev main_call6_cst : Ref sig .tc := ⟨.hbm, 212, rfl⟩
abbrev main_call6_v6 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S65536_S65536x1_0 : S65536.BroadcastsInDim S65536x1 (![0] : Fin 1 → Fin S65536x1.rank)
  bcast_S_S4096x128 : S_.BroadcastsInDim S4096x128 (![] : Fin 0 → Fin S4096x128.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S256x128_S128x256_1_0 : S256x128.Transposes [1, 0] S128x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S4096x1_S4096x256_0_1 : S4096x1.BroadcastsInDim S4096x256 (![0, 1] : Fin 2 → Fin S4096x256.rank)
  transposes_S256x256_S256x256_1_0 : S256x256.Transposes [1, 0] S256x256
  bcast_S_S16x256 : S_.BroadcastsInDim S16x256 (![] : Fin 0 → Fin S16x256.rank)
  bcast_S1x256_S16x256_0_1 : S1x256.BroadcastsInDim S16x256 (![0, 1] : Fin 2 → Fin S16x256.rank)
  transposes_S64x256_S256x64_1_0 : S64x256.Transposes [1, 0] S256x64
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  concatenates_S16x64_S16x16_S16x80_d1 : Shape.Concatenates [S16x64, S16x16] S16x80 1
  transposes_S512x80_S80x512_1_0 : S512x80.Transposes [1, 0] S80x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S_S16x512 : S_.BroadcastsInDim S16x512 (![] : Fin 0 → Fin S16x512.rank)
  transposes_S16384x512_S512x16384_1_0 : S16384x512.Transposes [1, 0] S512x16384
  bcast_S16384_S1x16384_1 : S16384.BroadcastsInDim S1x16384 (![1] : Fin 1 → Fin S1x16384.rank)
  bcast_S1x16384_S16x16384_0_1 : S1x16384.BroadcastsInDim S16x16384 (![0, 1] : Fin 2 → Fin S16x16384.rank)
  shapeCasts_S16x16384_S16x128x128 : S16x16384.ShapeCasts S16x128x128
  bcast_S16x128x128_S16x128x1x128_0_1_3 : S16x128x128.BroadcastsInDim S16x128x1x128 (![0, 1, 3] : Fin 3 → Fin S16x128x1x128.rank)
  bcast_S16x128x1x128_S16x128x128x128_0_1_2_3 : S16x128x1x128.BroadcastsInDim S16x128x128x128 (![0, 1, 2, 3] : Fin 4 → Fin S16x128x128x128.rank)
  bcast_S16x128x128_S16x1x128x128_0_2_3 : S16x128x128.BroadcastsInDim S16x1x128x128 (![0, 2, 3] : Fin 3 → Fin S16x1x128x128.rank)
  bcast_S16x1x128x128_S16x128x128x128_0_1_2_3 : S16x1x128x128.BroadcastsInDim S16x128x128x128 (![0, 1, 2, 3] : Fin 4 → Fin S16x128x128x128.rank)
  concatenates_S16x128x128x128_S16x128x128x128_S16x128x128x256_d3 : Shape.Concatenates [S16x128x128x128, S16x128x128x128] S16x128x128x256 3
  bcast_S512_S1x1x1x512_3 : S512.BroadcastsInDim S1x1x1x512 (![3] : Fin 1 → Fin S1x1x1x512.rank)
  bcast_S1x1x1x512_S16x128x128x512_0_1_2_3 : S1x1x1x512.BroadcastsInDim S16x128x128x512 (![0, 1, 2, 3] : Fin 4 → Fin S16x128x128x512.rank)
  bcast_S_S16x128x128x512 : S_.BroadcastsInDim S16x128x128x512 (![] : Fin 0 → Fin S16x128x128x512.rank)
  bcast_S1_S1x1x1x1_3 : S1.BroadcastsInDim S1x1x1x1 (![3] : Fin 1 → Fin S1x1x1x1.rank)
  bcast_S1x1x1x1_S16x128x128x1_0_1_2_3 : S1x1x1x1.BroadcastsInDim S16x128x128x1 (![0, 1, 2, 3] : Fin 4 → Fin S16x128x128x1.rank)
  shapeCasts_S16x128x128x1_S16x128x128 : S16x128x128x1.ShapeCasts S16x128x128
  bcast_S_S128x128 : S_.BroadcastsInDim S128x128 (![] : Fin 0 → Fin S128x128.rank)
  bcast_S128x128_S16x128x128_1_2 : S128x128.BroadcastsInDim S16x128x128 (![1, 2] : Fin 2 → Fin S16x128x128.rank)
  bcast_S_S16x128x128 : S_.BroadcastsInDim S16x128x128 (![] : Fin 0 → Fin S16x128x128.rank)
  transposes_S16x128x128_S16x128x128_0_2_1 : S16x128x128.Transposes [0, 2, 1] S16x128x128
  gather_S4096x128_S65536x1_S65536x128_1_0_n_n_0_1_1128_wf : GatherDims.WF S4096x128 S65536x1 S65536x128 [1] [0] [] [0] [] 1 ![1, 128]
  scatter_S4096x128_S65536x1_S65536x128_1_0_0_1_wf : ScatterDims.WF S4096x128 S65536x1 S65536x128 [1] [0] [0] 1
  scatter_S4096_S65536x1_S65536_n_0_0_1_wf : ScatterDims.WF S4096 S65536x1 S65536 [] [0] [0] 1
  dot_S4096x128_S128x256_S4096x256_1_0_0_1_n_n_wf : DotDims.WF S4096x128 S128x256 S4096x256 [1] [0] [0] [1] [] []
  gather_S4096x256_S65536x1_S65536x256_1_0_n_n_0_1_1256_wf : GatherDims.WF S4096x256 S65536x1 S65536x256 [1] [0] [] [0] [] 1 ![1, 256]
  scatter_S4096x256_S65536x1_S65536x256_1_0_0_1_wf : ScatterDims.WF S4096x256 S65536x1 S65536x256 [1] [0] [0] 1
  dot_S4096x256_S256x256_S4096x256_1_0_0_1_n_n_wf : DotDims.WF S4096x256 S256x256 S4096x256 [1] [0] [0] [1] [] []
  scatter_S16x256_S4096x1_S4096x256_1_0_0_1_wf : ScatterDims.WF S16x256 S4096x1 S4096x256 [1] [0] [0] 1
  dot_S16x256_S256x256_S16x256_1_0_0_1_n_n_wf : DotDims.WF S16x256 S256x256 S16x256 [1] [0] [0] [1] [] []
  dot_S16x256_S256x64_S16x64_1_0_0_1_n_n_wf : DotDims.WF S16x256 S256x64 S16x64 [1] [0] [0] [1] [] []
  dot_S16x80_S80x512_S16x512_1_0_0_1_n_n_wf : DotDims.WF S16x80 S80x512 S16x512 [1] [0] [0] [1] [] []
  dot_S16x512_S512x16384_S16x16384_1_0_0_1_n_n_wf : DotDims.WF S16x512 S512x16384 S16x16384 [1] [0] [0] [1] [] []
  dot_S16x128x128x256_S512x256_S16x128x128x512_3_1_012_0_n_n_wf : DotDims.WF S16x128x128x256 S512x256 S16x128x128x512 [3] [1] [0, 1, 2] [0] [] []
  dot_S16x128x128x512_S512x512_S16x128x128x512_3_1_012_0_n_n_wf : DotDims.WF S16x128x128x512 S512x512 S16x128x128x512 [3] [1] [0, 1, 2] [0] [] []
  dot_S16x128x128x512_S1x512_S16x128x128x1_3_1_012_0_n_n_wf : DotDims.WF S16x128x128x512 S1x512 S16x128x128x1 [3] [1] [0, 1, 2] [0] [] []

variable [Facts₀]

def gather_S4096x128_S65536x1_S65536x128_1_0_n_n_0_1_1128 : GatherDims S4096x128 S65536x1 S65536x128 where
  offsetDims := [1]
  collapsedSliceDims := [0]
  operandBatchingDims := []
  startIndicesBatchingDims := []
  startIndexMap := [0]
  indexVectorDim := 1
  sliceSizes := ![1, 128]
  wf := gather_S4096x128_S65536x1_S65536x128_1_0_n_n_0_1_1128_wf
def scatter_S4096x128_S65536x1_S65536x128_1_0_0_1 : ScatterDims S4096x128 S65536x1 S65536x128 where
  updateWindowDims := [1]
  insertedWindowDims := [0]
  scatterDimsToOperandDims := [0]
  indexVectorDim := 1
  wf := scatter_S4096x128_S65536x1_S65536x128_1_0_0_1_wf
def scatter_S4096_S65536x1_S65536_n_0_0_1 : ScatterDims S4096 S65536x1 S65536 where
  updateWindowDims := []
  insertedWindowDims := [0]
  scatterDimsToOperandDims := [0]
  indexVectorDim := 1
  wf := scatter_S4096_S65536x1_S65536_n_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def gather_S4096x256_S65536x1_S65536x256_1_0_n_n_0_1_1256 : GatherDims S4096x256 S65536x1 S65536x256 where
  offsetDims := [1]
  collapsedSliceDims := [0]
  operandBatchingDims := []
  startIndicesBatchingDims := []
  startIndexMap := [0]
  indexVectorDim := 1
  sliceSizes := ![1, 256]
  wf := gather_S4096x256_S65536x1_S65536x256_1_0_n_n_0_1_1256_wf
def scatter_S4096x256_S65536x1_S65536x256_1_0_0_1 : ScatterDims S4096x256 S65536x1 S65536x256 where
  updateWindowDims := [1]
  insertedWindowDims := [0]
  scatterDimsToOperandDims := [0]
  indexVectorDim := 1
  wf := scatter_S4096x256_S65536x1_S65536x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S16x256_S4096x1_S4096x256_1_0_0_1 : ScatterDims S16x256 S4096x1 S4096x256 where
  updateWindowDims := [1]
  insertedWindowDims := [0]
  scatterDimsToOperandDims := [0]
  indexVectorDim := 1
  wf := scatter_S16x256_S4096x1_S4096x256_1_0_0_1_wf
def dot_S16x256_S256x256_S16x256_1_0_0_1_n_n : DotDims S16x256 S256x256 S16x256 where
  lhsContracting := [1]
  rhsContracting := [0]
  lhsNonContracting := [0]
  rhsNonContracting := [1]
  lhsBatch := []
  rhsBatch := []
  wf := dot_S16x256_S256x256_S16x256_1_0_0_1_n_n_wf
def dot_S16x256_S256x64_S16x64_1_0_0_1_n_n : DotDims S16x256 S256x64 S16x64 where
  lhsContracting := [1]
  rhsContracting := [0]
  lhsNonContracting := [0]
  rhsNonContracting := [1]
  lhsBatch := []
  rhsBatch := []
  wf := dot_S16x256_S256x64_S16x64_1_0_0_1_n_n_wf
def dot_S16x80_S80x512_S16x512_1_0_0_1_n_n : DotDims S16x80 S80x512 S16x512 where
  lhsContracting := [1]
  rhsContracting := [0]
  lhsNonContracting := [0]
  rhsNonContracting := [1]
  lhsBatch := []
  rhsBatch := []
  wf := dot_S16x80_S80x512_S16x512_1_0_0_1_n_n_wf
def dot_S16x512_S512x16384_S16x16384_1_0_0_1_n_n : DotDims S16x512 S512x16384 S16x16384 where
  lhsContracting := [1]
  rhsContracting := [0]
  lhsNonContracting := [0]
  rhsNonContracting := [1]
  lhsBatch := []
  rhsBatch := []
  wf := dot_S16x512_S512x16384_S16x16384_1_0_0_1_n_n_wf
def dot_S16x128x128x256_S512x256_S16x128x128x512_3_1_012_0_n_n : DotDims S16x128x128x256 S512x256 S16x128x128x512 where
  lhsContracting := [3]
  rhsContracting := [1]
  lhsNonContracting := [0, 1, 2]
  rhsNonContracting := [0]
  lhsBatch := []
  rhsBatch := []
  wf := dot_S16x128x128x256_S512x256_S16x128x128x512_3_1_012_0_n_n_wf
def dot_S16x128x128x512_S512x512_S16x128x128x512_3_1_012_0_n_n : DotDims S16x128x128x512 S512x512 S16x128x128x512 where
  lhsContracting := [3]
  rhsContracting := [1]
  lhsNonContracting := [0, 1, 2]
  rhsNonContracting := [0]
  lhsBatch := []
  rhsBatch := []
  wf := dot_S16x128x128x512_S512x512_S16x128x128x512_3_1_012_0_n_n_wf
def dot_S16x128x128x512_S1x512_S16x128x128x1_3_1_012_0_n_n : DotDims S16x128x128x512 S1x512 S16x128x128x1 where
  lhsContracting := [3]
  rhsContracting := [1]
  lhsNonContracting := [0, 1, 2]
  rhsNonContracting := [0]
  lhsBatch := []
  rhsBatch := []
  wf := dot_S16x128x128x512_S1x512_S16x128x128x1_3_1_012_0_n_n_wf

class Facts : Prop extends Facts₀ where

variable [Facts]
-- ==== Proof.Spec.lean ====
/-
  The mathematics both programs compute after the node embedding, stated once over extended reals, with no program in sight.

  For graph `b` and an ordered pair of nodes `(i, j)` the pair's feature vector has 256 entries: the first 128 are node
  `i`'s embedding, the last 128 node `j`'s.  Three affine layers follow, the first two clipped below at zero:
      h₁[h] = max (∑ d, w₁[h,d] · pair[d] + b₁[h]) 0        (512 values)
      h₂[g] = max (∑ h, w₂[g,h] · h₁[h] + b₂[g]) 0          (512 values)
      logit = ∑ g, w₃[0,g] · h₂[g] + b₃[0].
  Every product is written weight first.  The other program writes the same products activation first; on the
  extended reals multiplication is commutative, so the two sums agree term by term, infinities included, and no
  hypothesis on the inputs is used.
  The result keeps the logits strictly above the diagonal and adds their mirror image (`upperSym`): this last
  stretch is the same sequence of array operations in both programs, so it is carried as one function and never opened.
-/
import Idealize.ShloMosaic.PureOps.Ideal
import Idealize.ShloMosaic.Lib.ValueIdx

noncomputable section

namespace Cert.EdgeMlp

open Idealize.ShloMosaic Idealize.ShloMosaic.ValueIdx

/-- Node embeddings `[graph, node, channel]`, and the logits `[graph, node i, node j]`. -/
abbrev SEmb : Shape := ⟨3, ![16, 128, 128]⟩
abbrev SW1 : Shape := ⟨2, ![512, 256]⟩
abbrev SW2 : Shape := ⟨2, ![512, 512]⟩
abbrev SW3 : Shape := ⟨2, ![1, 512]⟩
abbrev SB : Shape := ⟨1, ![512]⟩
abbrev SB3 : Shape := ⟨1, ![1]⟩
abbrev SMask : Shape := ⟨2, ![128, 128]⟩
abbrev S0 : Shape := ⟨0, ![]⟩

/-- Entry `d` of the pair `(i, j)`'s feature vector in graph `b`: node `i`'s channel `d` for `d < 128`, node `j`'s
    channel `d - 128` otherwise. -/
def pairFeat (E : FVec Ideal SEmb .f32) (b : Fin 16) (i j : Fin 128) (d : Fin 256) : EReal :=
  if h : d.val < 128 then E (ix3 b i ⟨d.val, h⟩) else E (ix3 b j ⟨d.val - 128, by omega⟩)

/-- First hidden layer, unit `h`. -/
def hidden1 (E : FVec Ideal SEmb .f32) (w1 : FVec Ideal SW1 .f32) (b1 : FVec Ideal SB .f32)
    (b : Fin 16) (i j : Fin 128) (h : Fin 512) : EReal :=
  max ((∑ d : Fin 256, w1 (ix2 h d) * pairFeat E b i j d) + b1 (ix1 h)) 0

/-- Second hidden layer, unit `g`. -/
def hidden2 (E : FVec Ideal SEmb .f32) (w1 : FVec Ideal SW1 .f32) (b1 : FVec Ideal SB .f32)
    (w2 : FVec Ideal SW2 .f32) (b2 : FVec Ideal SB .f32) (b : Fin 16) (i j : Fin 128) (g : Fin 512) : EReal :=
  max ((∑ h : Fin 512, w2 (ix2 g h) * hidden1 E w1 b1 b i j h) + b2 (ix1 g)) 0

/-- The pair's logit. -/
def logit (E : FVec Ideal SEmb .f32) (w1 : FVec Ideal SW1 .f32) (b1 : FVec Ideal SB .f32)
    (w2 : FVec Ideal SW2 .f32) (b2 : FVec Ideal SB .f32) (w3 : FVec Ideal SW3 .f32) (b3 : FVec Ideal SB3 .f32)
    (b : Fin 16) (i j : Fin 128) : EReal :=
  (∑ g : Fin 512, w3 (ix2 (0 : Fin 1) g) * hidden2 E w1 b1 w2 b2 b i j g) + b3 (ix1 (0 : Fin 1))

/-- All logits as one array. -/
def logits (E : FVec Ideal SEmb .f32) (w1 : FVec Ideal SW1 .f32) (b1 : FVec Ideal SB .f32)
    (w2 : FVec Ideal SW2 .f32) (b2 : FVec Ideal SB .f32) (w3 : FVec Ideal SW3 .f32) (b3 : FVec Ideal SB3 .f32) :
    FVec Ideal SEmb .f32 :=
  fun y => logit E w1 b1 w2 b2 w3 b3 ⟨(y 0).val, (y 0).isLt⟩ ⟨(y 1).val, (y 1).isLt⟩ ⟨(y 2).val, (y 2).isLt⟩

theorem logits_apply (E : FVec Ideal SEmb .f32) (w1 : FVec Ideal SW1 .f32) (b1 : FVec Ideal SB .f32)
    (w2 : FVec Ideal SW2 .f32) (b2 : FVec Ideal SB .f32) (w3 : FVec Ideal SW3 .f32) (b3 : FVec Ideal SB3 .f32)
    (b : Fin 16) (i j : Fin 128) :
    logits E w1 b1 w2 b2 w3 b3 (ix3 b i j) = logit E w1 b1 w2 b2 w3 b3 b i j := rfl

/-- Two arrays that agree at every `(b, i, j)` are equal. -/
theorem ext_ix3 {X Y : FVec Ideal SEmb .f32}
    (h : ∀ (b : Fin 16) (i j : Fin 128), X (ix3 b i j) = Y (ix3 b i j)) : X = Y := by
  funext y
  rw [eq_ix3 y]
  exact h _ _ _

/-- Keep the entries strictly above the diagonal of each graph's matrix, put zero elsewhere, and add the transpose:
    the symmetric matrix with zero diagonal whose upper triangle is `L`'s.  The mask is "row ≥ column" of the two
    index grids; where it holds the entry is replaced by zero. -/
def upperSym (hm : S0.BroadcastsInDim SMask (![] : Fin 0 → Fin SMask.rank))
    (hb : SMask.BroadcastsInDim SEmb (![1, 2] : Fin 2 → Fin SEmb.rank))
    (hz : S0.BroadcastsInDim SEmb (![] : Fin 0 → Fin SEmb.rank))
    (ht : SEmb.Transposes [0, 2, 1] SEmb)
    (L : FVec Ideal SEmb .f32) : FVec Ideal SEmb .f32 :=
  addf
    (select (broadcastInDim SEmb ![1, 2] hb (cmpi .sge (addi (iotaInDim SMask 32 0) (broadcastInDim SMask ![] hm (constantI S0 32 0#32))) (iotaInDim SMask 32 1)))
      (broadcastInDim SEmb ![] hz (constant (F := Ideal) S0 .f32 0x00000000#32)) L)
    (transpose SEmb [0, 2, 1]
      (select (broadcastInDim SEmb ![1, 2] hb (cmpi .sge (addi (iotaInDim SMask 32 0) (broadcastInDim SMask ![] hm (constantI S0 32 0#32))) (iotaInDim SMask 32 1)))
        (broadcastInDim SEmb ![] hz (constant (F := Ideal) S0 .f32 0x00000000#32)) L) ht)

end Cert.EdgeMlp

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.Rows.lean ====
/-
  One row of the kernel's output block as a function of the blocks it loads, and its value at the ideal instance.

  The kernel body is unrolled over the 16 query nodes of its tile.  For the query node in column `o` of the transposed
  query tile it builds the `[256, 128]` block of pair features — rows `0…127` repeat the query node's 128 channels along
  the 128 key nodes, rows `128…255` are the key nodes' channels —, pushes it through the three layers
      h₁ = max (W₁ · P + b₁) 0,   h₂ = max (W₂ · h₁ + b₂) 0,   out = W₃ · h₂ + b₃
  (each `·` a block matrix product into a zero accumulator, each bias a column broadcast along the key nodes), and
  stores the resulting row of 128 logits.  The sixteen rows are sixteen spellings of ONE function of the loaded blocks
  and the column number (`rowOut`); at the ideal instance its entry `j` is the three nested sums written out below
  (`rowOut_apply`), the narrowing and widening of the formats changing nothing there.
-/
import proofs.«181565_j26508538151540_1_alg».proof.Proof.Gen.KernelIdeal.Frame
import proofs.«181565_j26508538151540_1_alg».proof.Proof.LibColumns
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.EdgeMlp

open Idealize.ShloMosaic Idealize.ShloMosaic.ValueIdx
open Cert.KernelIdeal Cert.KernelIdeal.Gen

/-! ### First layer: `[512, 256] · [256, 128]` -/

theorem lhs1_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
theorem lhs1_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
theorem rhs1_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
theorem rhs1_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- Entry `(p, q)` of the first layer's product is `∑ k, A[p, k] · B[k, q]` over the 256 pair features. -/
theorem mm1_apply {φ₁ φ₂ : FTy} (A : FVec Ideal S512x256 φ₁) (B : FVec Ideal S256x128 φ₂) (p : Fin 512) (q : Fin 128) :
    matmul dot_S512x256_S256x128_S512x128_1_0_0_1_n_n none A B (constant S512x128 .f32 0x00000000#32) (ix2 p q)
      = ∑ k : Fin 256, A (ix2 p k) * B (ix2 k q) := by
  simp only [matmul]
  rw [Ideal.matmul_constant_zero_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 p q) ((contrEquiv1 dot_S512x256_S256x128_S512x128_1_0_0_1_n_n 256 rfl rfl).symm k) = ix2 p k := funext fun a => Fin.ext (by
    match a with
    | ⟨0, _⟩ => exact lhs1_0 _ _
    | ⟨1, _⟩ => exact (lhs1_1 _ _).trans hk)
  have er : dot_S512x256_S256x128_S512x128_1_0_0_1_n_n.rhsIdx (ix2 p q) ((contrEquiv1 dot_S512x256_S256x128_S512x128_1_0_0_1_n_n 256 rfl rfl).symm k) = ix2 k q := funext fun a => Fin.ext (by
    match a with
    | ⟨0, _⟩ => exact (rhs1_0 _ _).trans hk
    | ⟨1, _⟩ => exact rhs1_1 _ _)
  rw [el, er]

/-! ### Second layer: `[512, 512] · [512, 128]` -/

theorem lhs2_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs2_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs2_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs2_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- Entry `(p, q)` of the second layer's product is `∑ k, A[p, k] · B[k, q]` over the 512 hidden units. -/
theorem mm2_apply {φ₁ φ₂ : FTy} (A : FVec Ideal S512x512 φ₁) (B : FVec Ideal S512x128 φ₂) (p : Fin 512) (q : Fin 128) :
    matmul dot_S512x512_S512x128_S512x128_1_0_0_1_n_n none A B (constant S512x128 .f32 0x00000000#32) (ix2 p q)
      = ∑ k : Fin 512, A (ix2 p k) * B (ix2 k q) := by
  simp only [matmul]
  rw [Ideal.matmul_constant_zero_apply, ← Equiv.sum_comp (contrEquiv1 dot_S512x512_S512x128_S512x128_1_0_0_1_n_n 512 rfl rfl).symm]
  refine Finset.sum_congr rfl fun k _ => ?_
  have hk := contrEquiv1_symm_val dot_S512x512_S512x128_S512x128_1_0_0_1_n_n 512 rfl rfl k
  have el : dot_S512x512_S512x128_S512x128_1_0_0_1_n_n.lhsIdx (ix2 p q) ((contrEquiv1 dot_S512x512_S512x128_S512x128_1_0_0_1_n_n 512 rfl rfl).symm k) = ix2 p k := funext fun a => Fin.ext (by
    match a with
    | ⟨0, _⟩ => exact lhs2_0 _ _
    | ⟨1, _⟩ => exact (lhs2_1 _ _).trans hk)
  have er : dot_S512x512_S512x128_S512x128_1_0_0_1_n_n.rhsIdx (ix2 p q) ((contrEquiv1 dot_S512x512_S512x128_S512x128_1_0_0_1_n_n 512 rfl rfl).symm k) = ix2 k q := funext fun a => Fin.ext (by
    match a with
    | ⟨0, _⟩ => exact (rhs2_0 _ _).trans hk
    | ⟨1, _⟩ => exact rhs2_1 _ _)
  rw [el, er]

/-! ### Output layer: `[1, 512] · [512, 128]` -/

theorem lhs3_0 (i : S1x128.Idx) (q : dot_S1x512_S512x128_S1x128_1_0_0_1_n_n.contr.Idx) :
    (dot_S1x512_S512x128_S1x128_1_0_0_1_n_n.lhsIdx i q 0).val = (i 0).val := by
  unfold DotDims.lhsIdx
  rw [dif_neg (show ¬(0 : Fin S1x512.rank) ∈ dot_S1x512_S512x128_S1x128_1_0_0_1_n_n.lhsBatch by decide), dif_pos (show (0 : Fin S1x512.rank) ∈ dot_S1x512_S512x128_S1x128_1_0_0_1_n_n.lhsNonContracting by decide)]
  rfl
theorem lhs3_1 (i : S1x128.Idx) (q : dot_S1x512_S512x128_S1x128_1_0_0_1_n_n.contr.Idx) :
    (dot_S1x512_S512x128_S1x128_1_0_0_1_n_n.lhsIdx i q 1).val = (q ⟨0, by decide⟩).val :=
  dot_S1x512_S512x128_S1x128_1_0_0_1_n_n.lhsIdx_val_of_single rfl i q
theorem rhs3_0 (i : S1x128.Idx) (q : dot_S1x512_S512x128_S1x128_1_0_0_1_n_n.contr.Idx) :
    (dot_S1x512_S512x128_S1x128_1_0_0_1_n_n.rhsIdx i q 0).val = (q ⟨0, by decide⟩).val :=
  dot_S1x512_S512x128_S1x128_1_0_0_1_n_n.rhsIdx_val_of_single rfl i q
theorem rhs3_1 (i : S1x128.Idx) (q : dot_S1x512_S512x128_S1x128_1_0_0_1_n_n.contr.Idx) :
    (dot_S1x512_S512x128_S1x128_1_0_0_1_n_n.rhsIdx i q 1).val = (i 1).val := by
  unfold DotDims.rhsIdx
  rw [dif_neg (show ¬(1 : Fin S512x128.rank) ∈ dot_S1x512_S512x128_S1x128_1_0_0_1_n_n.rhsBatch by decide), dif_pos (show (1 : Fin S512x128.rank) ∈ dot_S1x512_S512x128_S1x128_1_0_0_1_n_n.rhsNonContracting by decide)]
  rfl

/-- Entry `(0, q)` of the output layer's product is `∑ k, A[0, k] · B[k, q]` over the 512 hidden units. -/
theorem mm3_apply {φ₁ φ₂ : FTy} (A : FVec Ideal S1x512 φ₁) (B : FVec Ideal S512x128 φ₂) (q : Fin 128) :
    matmul dot_S1x512_S512x128_S1x128_1_0_0_1_n_n none A B (constant S1x128 .f32 0x00000000#32) (ix2 (0 : Fin 1) q)
      = ∑ k : Fin 512, A (ix2 (0 : Fin 1) k) * B (ix2 k q) := by
  simp only [matmul]
  rw [Ideal.matmul_constant_zero_apply, ← Equiv.sum_comp (contrEquiv1 dot_S1x512_S512x128_S1x128_1_0_0_1_n_n 512 rfl rfl).symm]
  refine Finset.sum_congr rfl fun k _ => ?_
  have hk := contrEquiv1_symm_val dot_S1x512_S512x128_S1x128_1_0_0_1_n_n 512 rfl rfl k
  have el : dot_S1x512_S512x128_S1x128_1_0_0_1_n_n.lhsIdx (ix2 (0 : Fin 1) q) ((contrEquiv1 dot_S1x512_S512x128_S1x128_1_0_0_1_n_n 512 rfl rfl).symm k) = ix2 (0 : Fin 1) k := funext fun a => Fin.ext (by
    match a with
    | ⟨0, _⟩ => exact lhs3_0 _ _
    | ⟨1, _⟩ => exact (lhs3_1 _ _).trans hk)
  have er : dot_S1x512_S512x128_S1x128_1_0_0_1_n_n.rhsIdx (ix2 (0 : Fin 1) q) ((contrEquiv1 dot_S1x512_S512x128_S1x128_1_0_0_1_n_n 512 rfl rfl).symm k) = ix2 k q := funext fun a => Fin.ext (by
    match a with
    | ⟨0, _⟩ => exact (rhs3_0 _ _).trans hk
    | ⟨1, _⟩ => exact rhs3_1 _ _)
  rw [el, er]

/-! ## One row of the block -/

section Row

variable {F : FTy → Type} [FloatOps F]

/-- The pair features for the query node in column `o` of the transposed query tile `Q` (`[128 channels, 16 nodes]`) against
    all key nodes `K` (`[128 channels, 128 nodes]`): the query's channels repeated along the key nodes, on top of the keys'. -/
def pairBlock (o : Nat) (hs : S128x16.Slices ![0, o] S128x1) (K : FVec F S128x128 .bf16) (Q : FVec F S128x16 .bf16) :
    FVec F S256x128 .bf16 :=
  concatenate S256x128 0 [⟨S128x128, broadcastTo S128x128 (shapeCast S128x1 (extractStridedSlice S128x1 ![0, o] Q hs) shapeCasts_S128x1_S128x1) broadcasts_S128x1_S128x128⟩, ⟨S128x128, K⟩] concatenates_S128x128_S128x128_S256x128_d0

/-- First layer on a block of pair features, before clipping. -/
def pre1 (W : FVec F S512x256 .bf16) (bias : FVec F S512x1 .f32) (P : FVec F S256x128 .bf16) : FVec F S512x128 .f32 :=
  addf (matmul dot_S512x256_S256x128_S512x128_1_0_0_1_n_n none W P (constant S512x128 .f32 0x00000000#32)) (broadcastTo S512x128 bias broadcasts_S512x1_S512x128)

/-- Second layer, before clipping. -/
def pre2 (W : FVec F S512x512 .bf16) (bias : FVec F S512x1 .f32) (H : FVec F S512x128 .bf16) : FVec F S512x128 .f32 :=
  addf (matmul dot_S512x512_S512x128_S512x128_1_0_0_1_n_n none W H (constant S512x128 .f32 0x00000000#32)) (broadcastTo S512x128 bias broadcasts_S512x1_S512x128)

/-- Clip below at zero and narrow. -/
def clip (X : FVec F S512x128 .f32) : FVec F S512x128 .bf16 :=
  truncf .bf16 (maximumf X (broadcast S512x128 (Scalar.ofBits .f32 0x00000000#32))) bitsLt_bf16_f32

/-- Output layer: one row of 128 logits, laid out as the `[1, 1, 128]` piece that is stored. -/
def outRow (W : FVec F S1x512 .bf16) (bias : FVec F S1x1 .f32) (H : FVec F S512x128 .bf16) : FVec F S1x1x128 .f32 :=
  shapeCast S1x1x128 (shapeCast S128 (addf (matmul dot_S1x512_S512x128_S1x128_1_0_0_1_n_n none W H (constant S1x128 .f32 0x00000000#32)) (broadcastTo S1x128 bias broadcasts_S1x1_S1x128)) shapeCasts_S1x128_S128) shapeCasts_S128_S1x1x128

/-- The row stored for the query node in column `o`. -/
def rowOut (o : Nat) (hs : S128x16.Slices ![0, o] S128x1) (K : FVec F S128x128 .bf16) (W1 : FVec F S512x256 .bf16) (b1 : FVec F S512x1 .f32)
    (W2 : FVec F S512x512 .bf16) (b2 : FVec F S512x1 .f32) (W3 : FVec F S1x512 .bf16) (b3 : FVec F S1x1 .f32) (Q : FVec F S128x16 .bf16) :
    FVec F S1x1x128 .f32 :=
  outRow W3 b3 (clip (pre2 W2 b2 (clip (pre1 W1 b1 (pairBlock o hs K Q)))))

variable (v0 : Vec F S1x128x128 .bf16) (v2 : Vec F S512x256 .bf16) (v4 : Vec F S512x1 .f32) (v6 : Vec F S512x512 .bf16)
  (v8 : Vec F S512x1 .f32) (v14 : Vec F S1x16x128 .bf16)
variable (K : FVec F S128x128 .bf16) (W1 : FVec F S512x256 .bf16) (b1 : FVec F S512x1 .f32)
    (W2 : FVec F S512x512 .bf16) (b2 : FVec F S512x1 .f32) (W3 : FVec F S1x512 .bf16) (b3 : FVec F S1x1 .f32) (Q : FVec F S128x16 .bf16)

/-! The sixteen stored payloads are `rowOut` at columns 0 … 15: the same operations, cut at different places. -/

theorem row0_eq : k0_pay11 W3 b3 (k0_pay10 v0 v2 v4 v6 v8 v14) (constant S1x128 .f32 0x00000000#32)
    = rowOut 0 slices_S128x16_o0_0_S128x1 (k0_pay2 v0) (k0_pay3 v2) (k0_pay4 v4) (k0_pay5 v6) (k0_pay6 v8) W3 b3 (k0_pay9 v14) := rfl
theorem row1_eq : k0_pay12 K W1 b1 W2 b2 W3 b3 Q = rowOut 1 slices_S128x16_o0_1_S128x1 K W1 b1 W2 b2 W3 b3 Q := rfl
theorem row2_eq : k0_pay14 W3 b3 (k0_pay13 K W1 b1 W2 b2 Q) (Scalar.ofBits .f32 0x00000000#32)
    = rowOut 2 slices_S128x16_o0_2_S128x1 K W1 b1 W2 b2 W3 b3 Q := rfl
theorem row3_eq : k0_pay15 K W1 b1 W2 b2 W3 b3 Q = rowOut 3 slices_S128x16_o0_3_S128x1 K W1 b1 W2 b2 W3 b3 Q := rfl
theorem row4_eq : k0_pay17 W2 b2 W3 b3 (k0_pay16 K W1 b1 Q) (constant S512x128 .f32 0x00000000#32)
    = rowOut 4 slices_S128x16_o0_4_S128x1 K W1 b1 W2 b2 W3 b3 Q := rfl
theorem row5_eq : k0_pay18 K W1 b1 W2 b2 W3 b3 Q = rowOut 5 slices_S128x16_o0_5_S128x1 K W1 b1 W2 b2 W3 b3 Q := rfl
theorem row6_eq : k0_pay20 W2 b2 W3 b3 (k0_pay19 K W1 b1 Q) (Scalar.ofBits .f32 0x00000000#32)
    = rowOut 6 slices_S128x16_o0_6_S128x1 K W1 b1 W2 b2 W3 b3 Q := rfl
theorem row7_eq : k0_pay21 K W1 b1 W2 b2 W3 b3 Q = rowOut 7 slices_S128x16_o0_7_S128x1 K W1 b1 W2 b2 W3 b3 Q := rfl
theorem row8_eq : k0_pay23 W1 b1 W2 b2 W3 b3 (k0_pay22 K Q) (constant S512x128 .f32 0x00000000#32)
    = rowOut 8 slices_S128x16_o0_8_S128x1 K W1 b1 W2 b2 W3 b3 Q := rfl
theorem row9_eq : k0_pay24 K W1 b1 W2 b2 W3 b3 Q = rowOut 9 slices_S128x16_o0_9_S128x1 K W1 b1 W2 b2 W3 b3 Q := rfl
theorem row10_eq : k0_pay26 K W1 b1 W2 b2 W3 b3 (k0_pay25 Q) = rowOut 10 slices_S128x16_o0_10_S128x1 K W1 b1 W2 b2 W3 b3 Q := rfl
theorem row11_eq : k0_pay28 (k0_pay27 K W1 b1 W2 b2 W3 b3 Q) = rowOut 11 slices_S128x16_o0_11_S128x1 K W1 b1 W2 b2 W3 b3 Q := rfl
theorem row12_eq : k0_pay29 K W1 b1 W2 b2 W3 b3 Q = rowOut 12 slices_S128x16_o0_12_S128x1 K W1 b1 W2 b2 W3 b3 Q := rfl
theorem row13_eq : k0_pay31 (k0_pay30 K W1 b1 W2 b2 W3 b3 Q) = rowOut 13 slices_S128x16_o0_13_S128x1 K W1 b1 W2 b2 W3 b3 Q := rfl
theorem row14_eq : k0_pay32 K W1 b1 W2 b2 W3 b3 Q = rowOut 14 slices_S128x16_o0_14_S128x1 K W1 b1 W2 b2 W3 b3 Q := rfl
theorem row15_eq : k0_pay1 W3 b3 (k0_pay33 K W1 b1 W2 b2 Q) (constant S1x128 .f32 0x00000000#32)
    = rowOut 15 slices_S128x16_o0_15_S128x1 K W1 b1 W2 b2 W3 b3 Q := rfl

end Row

/-! ## The whole output block

The block is `[1, 16, 128]`: row `r` is the row stored for the query node in column `r`.  Every stored piece is a
restriction of ONE function of the block index, so the buffer after the sixteen stores is that function. -/

section Block

variable {F : FTy → Type} [FloatOps F]

/-- Column `o < 16` of the transposed query tile can be cut out. -/
theorem slice_ok (o : Nat) (ho : o < 16) : S128x16.Slices ![0, o] S128x1 :=
  ⟨rfl, fun a => match a with
    | ⟨0, _⟩ => by show 0 + 128 ≤ 128; omega
    | ⟨1, _⟩ => by show o + 1 ≤ 16; omega⟩

/-- `rowOut` depends on the column number and on the index only through their values. -/
theorem rowOut_congr (o o' : Nat) (e : o = o') (hs : S128x16.Slices ![0, o] S128x1) (hs' : S128x16.Slices ![0, o'] S128x1)
    (K : FVec F S128x128 .bf16) (W1 : FVec F S512x256 .bf16) (b1 : FVec F S512x1 .f32)
    (W2 : FVec F S512x512 .bf16) (b2 : FVec F S512x1 .f32) (W3 : FVec F S1x512 .bf16) (b3 : FVec F S1x1 .f32) (Q : FVec F S128x16 .bf16)
    (i i' : S1x1x128.Idx) (ei : i = i') :
    rowOut o hs K W1 b1 W2 b2 W3 b3 Q i = rowOut o' hs' K W1 b1 W2 b2 W3 b3 Q i' := by
  subst e; subst ei; rfl

/-- The block as one function of its index `(0, r, j)`: entry `j` of the row for the query node in column `r`. -/
def blockG (K : FVec F S128x128 .bf16) (W1 : FVec F S512x256 .bf16) (b1 : FVec F S512x1 .f32)
    (W2 : FVec F S512x512 .bf16) (b2 : FVec F S512x1 .f32) (W3 : FVec F S1x512 .bf16) (b3 : FVec F S1x1 .f32) (Q : FVec F S128x16 .bf16) :
    Vec F S1x16x128 .f32 := fun y =>
  rowOut (y 1).val (slice_ok (y 1).val (y 1).isLt) K W1 b1 W2 b2 W3 b3 Q
    (ix3 (0 : Fin 1) (0 : Fin 1) (⟨(y 2).val, (y 2).isLt⟩ : Fin 128))

/-- The piece stored through row `o`'s rectangle is `blockG` restricted to that row. -/
theorem piece_agrees (o : Nat) (ho : o < 16) (hs : S128x16.Slices ![0, o] S128x1)
    (inb : ∀ a, (![0, o, 0] : Fin 3 → Nat) a + S1x1x128.size a ≤ S1x16x128.size a)
    (K : FVec F S128x128 .bf16) (W1 : FVec F S512x256 .bf16) (b1 : FVec F S512x1 .f32)
    (W2 : FVec F S512x512 .bf16) (b2 : FVec F S512x1 .f32) (W3 : FVec F S1x512 .bf16) (b3 : FVec F S1x1 .f32) (Q : FVec F S128x16 .bf16)
    (x : S1x1x128.Idx) :
    rowOut o hs K W1 b1 W2 b2 W3 b3 Q x
      = blockG K W1 b1 W2 b2 W3 b3 Q ((Rect.unit (s := S1x16x128) ![0, o, 0] S1x1x128.size inb).emb x) := by
  unfold blockG
  have h0 : (x 0).val = 0 := by have : (x 0).val < 1 := (x 0).isLt; omega
  have h1 : (x 1).val = 0 := by have : (x 1).val < 1 := (x 1).isLt; omega
  refine rowOut_congr o _ ?_ hs _ K W1 b1 W2 b2 W3 b3 Q x _ ?_
  · show o = o + 1 * (x 1).val
    omega
  · funext a
    apply Fin.ext
    match a with
    | ⟨0, _⟩ => exact h0
    | ⟨1, _⟩ => exact h1
    | ⟨2, _⟩ => show (x 2).val = 0 + 1 * (x 2).val; omega

end Block

section BlockEq

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- WHAT THE BODY LEAVES in the output buffer, from the blocks it loads: `blockG` of the loaded blocks (each load reads a
    whole staging buffer, so it is the block itself; the casts that follow are the payloads `k0_pay2 … k0_pay9`). -/
theorem out0_8_eq (x0 : Vec F S1x16x128 .bf16) (x1 : Vec F S1x128x128 .bf16) (x2 : Vec F S512x256 .bf16) (x3 : Vec F S512x1 .f32)
    (x4 : Vec F S512x512 .bf16) (x5 : Vec F S512x1 .f32) (x6 : Vec F S1x512 .bf16) (x7 : Vec F S1x1 .f32) :
    out0_8 x0 x1 x2 x3 x4 x5 x6 x7
      = blockG (k0_pay2 x1) (k0_pay3 x2) (k0_pay4 x3) (k0_pay5 x4) (k0_pay6 x5) (k0_pay7 x6) (k0_pay8 x7) (k0_pay9 x0) := by
  funext y
  unfold out0_8
  simp only [View.ld_unit_zero (S := S1x128x128) zeros3, View.ld_unit_zero (S := S1x16x128) zeros3,
    View.ld_unit_zero (S := S512x256) zeros2, View.ld_unit_zero (S := S512x1) zeros2, View.ld_unit_zero (S := S512x512) zeros2,
    View.ld_unit_zero (S := S1x512) zeros2, View.ld_unit_zero (S := S1x1) zeros2]
  refine View.canon_apply_of_pieces
    (blockG (k0_pay2 x1) (k0_pay3 x2) (k0_pay4 x3) (k0_pay5 x4) (k0_pay6 x5) (k0_pay7 x6) (k0_pay8 x7) (k0_pay9 x0)) _ ?_ y
    (cover0_8 _ _ _ _ _ _ _ _ _ _ _ _ _ _ _ _ y)
  intro p hp x
  simp only [List.mem_cons, List.mem_nil_iff, or_false] at hp
  rcases hp with rfl | rfl | rfl | rfl | rfl | rfl | rfl | rfl | rfl | rfl | rfl | rfl | rfl | rfl | rfl | rfl
  · exact (congrFun (row15_eq _ _ _ _ _ _ _ _) x).trans (piece_agrees 15 (by omega) slices_S128x16_o0_15_S128x1 inb_S1x16x128_S1x1x128_0_15_0 _ _ _ _ _ _ _ _ x)
  · exact (congrFun (row14_eq _ _ _ _ _ _ _ _) x).trans (piece_agrees 14 (by omega) slices_S128x16_o0_14_S128x1 inb_S1x16x128_S1x1x128_0_14_0 _ _ _ _ _ _ _ _ x)
  · exact (congrFun (row13_eq _ _ _ _ _ _ _ _) x).trans (piece_agrees 13 (by omega) slices_S128x16_o0_13_S128x1 inb_S1x16x128_S1x1x128_0_13_0 _ _ _ _ _ _ _ _ x)
  · exact (congrFun (row12_eq _ _ _ _ _ _ _ _) x).trans (piece_agrees 12 (by omega) slices_S128x16_o0_12_S128x1 inb_S1x16x128_S1x1x128_0_12_0 _ _ _ _ _ _ _ _ x)
  · exact (congrFun (row11_eq _ _ _ _ _ _ _ _) x).trans (piece_agrees 11 (by omega) slices_S128x16_o0_11_S128x1 inb_S1x16x128_S1x1x128_0_11_0 _ _ _ _ _ _ _ _ x)
  · exact (congrFun (row10_eq _ _ _ _ _ _ _ _) x).trans (piece_agrees 10 (by omega) slices_S128x16_o0_10_S128x1 inb_S1x16x128_S1x1x128_0_10_0 _ _ _ _ _ _ _ _ x)
  · exact (congrFun (row9_eq _ _ _ _ _ _ _ _) x).trans (piece_agrees 9 (by omega) slices_S128x16_o0_9_S128x1 inb_S1x16x128_S1x1x128_0_9_0 _ _ _ _ _ _ _ _ x)
  · exact (congrFun (row8_eq _ _ _ _ _ _ _ _) x).trans (piece_agrees 8 (by omega) slices_S128x16_o0_8_S128x1 inb_S1x16x128_S1x1x128_0_8_0 _ _ _ _ _ _ _ _ x)
  · exact (congrFun (row7_eq _ _ _ _ _ _ _ _) x).trans (piece_agrees 7 (by omega) slices_S128x16_o0_7_S128x1 inb_S1x16x128_S1x1x128_0_7_0 _ _ _ _ _ _ _ _ x)
  · exact (congrFun (row6_eq _ _ _ _ _ _ _ _) x).trans (piece_agrees 6 (by omega) slices_S128x16_o0_6_S128x1 inb_S1x16x128_S1x1x128_0_6_0 _ _ _ _ _ _ _ _ x)
  · exact (congrFun (row5_eq _ _ _ _ _ _ _ _) x).trans (piece_agrees 5 (by omega) slices_S128x16_o0_5_S128x1 inb_S1x16x128_S1x1x128_0_5_0 _ _ _ _ _ _ _ _ x)
  · exact (congrFun (row4_eq _ _ _ _ _ _ _ _) x).trans (piece_agrees 4 (by omega) slices_S128x16_o0_4_S128x1 inb_S1x16x128_S1x1x128_0_4_0 _ _ _ _ _ _ _ _ x)
  · exact (congrFun (row3_eq _ _ _ _ _ _ _ _) x).trans (piece_agrees 3 (by omega) slices_S128x16_o0_3_S128x1 inb_S1x16x128_S1x1x128_0_3_0 _ _ _ _ _ _ _ _ x)
  · exact (congrFun (row2_eq _ _ _ _ _ _ _ _) x).trans (piece_agrees 2 (by omega) slices_S128x16_o0_2_S128x1 inb_S1x16x128_S1x1x128_0_2_0 _ _ _ _ _ _ _ _ x)
  · exact (congrFun (row1_eq _ _ _ _ _ _ _ _) x).trans (piece_agrees 1 (by omega) slices_S128x16_o0_1_S128x1 inb_S1x16x128_S1x1x128_0_1_0 _ _ _ _ _ _ _ _ x)
  · exact (congrFun (row0_eq _ _ _ _ _ _ _ _) x).trans (piece_agrees 0 (by omega) slices_S128x16_o0_0_S128x1 inb_S1x16x128_S1x1x128_0_0_0 _ _ _ _ _ _ _ _ x)

end BlockEq

end Cert.KernelIdeal.EdgeMlp

/-! ## The row at the ideal instance -/

namespace Cert.KernelIdeal.EdgeMlp

open Idealize.ShloMosaic Idealize.ShloMosaic.ValueIdx
open Cert.KernelIdeal Cert.KernelIdeal.Gen

/-- Row `d` of the pair-feature block at key node `j`: the query node's channel `d` for `d < 128`, key node `j`'s channel
    `d - 128` otherwise. -/
theorem pairBlock_apply (o : Nat) (ho : o < 16) (hs : S128x16.Slices ![0, o] S128x1) (K : FVec Ideal S128x128 .bf16)
    (Q : FVec Ideal S128x16 .bf16) (d : Fin 256) (j : Fin 128) :
    pairBlock o hs K Q (ix2 d j)
      = if hd : d.val < 128 then Q (ix2 ⟨d.val, hd⟩ ⟨o, ho⟩) else K (ix2 ⟨d.val - 128, by omega⟩ j) := by
  unfold pairBlock
  by_cases hd : d.val < 128
  · rw [dif_pos hd]
    refine (concatenate_pair_apply_left (0 : Fin S256x128.rank) _ K concatenates_S128x128_S128x128_S256x128_d0 (ix2 d j) rfl
      (ix2 (⟨d.val, hd⟩ : Fin 128) j) (fun b => match b with | ⟨0, _⟩ => rfl | ⟨1, _⟩ => rfl)).trans ?_
    rw [Cert.Columns.broadcastTo_a1_ab_apply, shapeCast_self]
    exact extractStridedSlice_apply ![0, o] Q hs (ix2 (⟨d.val, hd⟩ : Fin 128) (0 : Fin 1)) (ix2 (⟨d.val, hd⟩ : Fin 128) (⟨o, ho⟩ : Fin 16))
      (fun a => match a with
        | ⟨0, _⟩ => by show d.val = 0 + d.val; omega
        | ⟨1, _⟩ => by show o = o + 0; omega)
  · rw [dif_neg hd]
    exact concatenate_pair_apply_right (0 : Fin S256x128.rank) _ K concatenates_S128x128_S128x128_S256x128_d0 (ix2 d j) rfl rfl
      (ix2 (⟨d.val - 128, by omega⟩ : Fin 128) j)
      (fun b hb => match b, hb with
        | ⟨0, _⟩, hb => absurd rfl hb
        | ⟨1, _⟩, _ => rfl)
      (by show (d.val - 128) + 128 = d.val; omega)

/-- First layer before clipping, hidden unit `h`, key node `j`. -/
theorem pre1_apply (W : FVec Ideal S512x256 .bf16) (bias : FVec Ideal S512x1 .f32) (P : FVec Ideal S256x128 .bf16) (h : Fin 512) (j : Fin 128) :
    pre1 W bias P (ix2 h j) = (∑ d : Fin 256, W (ix2 h d) * P (ix2 d j)) + bias (ix2 h (0 : Fin 1)) := by
  unfold pre1
  rw [addf_apply, mm1_apply, Cert.Columns.broadcastTo_a1_ab_apply]

/-- Second layer before clipping. -/
theorem pre2_apply (W : FVec Ideal S512x512 .bf16) (bias : FVec Ideal S512x1 .f32) (H : FVec Ideal S512x128 .bf16) (g : Fin 512) (j : Fin 128) :
    pre2 W bias H (ix2 g j) = (∑ h : Fin 512, W (ix2 g h) * H (ix2 h j)) + bias (ix2 g (0 : Fin 1)) := by
  unfold pre2
  rw [addf_apply, mm2_apply, Cert.Columns.broadcastTo_a1_ab_apply]

/-- Clipping is `max · 0`, entry by entry; the narrowing changes nothing at this instance. -/
theorem clip_apply (X : FVec Ideal S512x128 .f32) (i : S512x128.Idx) : clip X i = max (X i) 0 := by
  show max (X i) (Ideal.ofBits .f32 0x00000000#32) = _
  rw [Ideal.ofBits_zero_f32]

/-- The stored row, entry `j`. -/
theorem outRow_apply (W : FVec Ideal S1x512 .bf16) (bias : FVec Ideal S1x1 .f32) (H : FVec Ideal S512x128 .bf16) (j : Fin 128) :
    outRow W bias H (ix3 (0 : Fin 1) (0 : Fin 1) j) = (∑ g : Fin 512, W (ix2 (0 : Fin 1) g) * H (ix2 g j)) + bias (ix2 (0 : Fin 1) (0 : Fin 1)) := by
  unfold outRow
  rw [shapeCast_apply _ shapeCasts_S128_S1x1x128 (ix3 (0 : Fin 1) (0 : Fin 1) j) (ix1 j) (by
      rw [Shape.rowMajor_val_one, Shape.rowMajor_val_three]
      show j.val = (0 * 1 + 0) * 128 + j.val
      omega),
    shapeCast_1a_a_apply, addf_apply, mm3_apply, Cert.Columns.broadcastTo_a1_ab_apply]

/-- Entry `j` of the row stored for the query node in column `o`: the three layers written out. -/
theorem rowOut_apply (o : Nat) (ho : o < 16) (hs : S128x16.Slices ![0, o] S128x1) (K : FVec Ideal S128x128 .bf16)
    (W1 : FVec Ideal S512x256 .bf16) (b1 : FVec Ideal S512x1 .f32) (W2 : FVec Ideal S512x512 .bf16) (b2 : FVec Ideal S512x1 .f32)
    (W3 : FVec Ideal S1x512 .bf16) (b3 : FVec Ideal S1x1 .f32) (Q : FVec Ideal S128x16 .bf16) (j : Fin 128) :
    rowOut o hs K W1 b1 W2 b2 W3 b3 Q (ix3 (0 : Fin 1) (0 : Fin 1) j)
      = (∑ g : Fin 512, W3 (ix2 (0 : Fin 1) g) *
          max ((∑ h : Fin 512, W2 (ix2 g h) *
            max ((∑ d : Fin 256, W1 (ix2 h d) *
              (if hd : d.val < 128 then Q (ix2 ⟨d.val, hd⟩ ⟨o, ho⟩) else K (ix2 ⟨d.val - 128, by omega⟩ j)))
              + b1 (ix2 h (0 : Fin 1))) 0)
            + b2 (ix2 g (0 : Fin 1))) 0)
        + b3 (ix2 (0 : Fin 1) (0 : Fin 1)) := by
  unfold rowOut
  rw [outRow_apply]
  simp only [clip_apply, pre2_apply, pre1_apply, pairBlock_apply o ho]

end Cert.KernelIdeal.EdgeMlp

end
-- ==== Proof.Entry.lean ====
/-
  The kernel's eight operands, read as values.

  After the node embeddings are computed the host makes eight arrays for the kernel from the embeddings and six
  further arguments, by operations that move or rename entries and change no value over the extended reals:
  narrowing to bf16 (the identity there), exchanging the node and channel axes, and laying a vector out as a
  one-column matrix.  Each lemma reads one of the eight at an index.  All of them are written by the last stretch
  of host operations before the kernel, so only that stretch is opened: what the earlier stretches leave is
  carried as one valuation and never looked into.
-/
import proofs.«181565_j26508538151540_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.EdgeMlp

open Idealize.ShloMosaic Idealize.ShloMosaic.TcCoe Idealize.SL.Sem Idealize.ShloMosaic.StableHlo
open Idealize.ShloMosaic.ValueIdx
open Cert.KernelIdeal Cert.KernelIdeal.Gen

/-- Running two lists of host operations one after the other is running their concatenation. -/
private theorem after_append {τ : Topo} {sig : RefSig} {Val : EltTy → Type}
    (l₁ l₂ : List (HloOp τ sig Val)) (v : Valuation τ sig Val) :
    after (l₁ ++ l₂) v = after l₂ (after l₁ v) := by
  induction l₁ generalizing v with
  | nil => rfl
  | cons op l ih => exact ih (op.result v)

/-- Narrowing a float array changes nothing over the extended reals. -/
private theorem truncf_ideal {s : Shape} {φ : FTy} (ψ : FTy) (x : FVec Ideal s φ) (h : ψ.bits < φ.bits) :
    truncf ψ x h = x := rfl

variable (m : (l : Loc nD τ sig) → Buf (Elt Ideal) l)

/-- What the host operations before the last stretch leave in the buffers. -/
private def W (c : Dev nD) : Valuation τ sig (Elt Ideal) :=
  after (List.flatten [hostOps0, hostOps0_1, hostOps0_2, hostOps0_3, hostOps0_4, hostOps0_5, hostOps0_6, hostOps0_7])
    (fun b => m (c, b))

/-- The buffer contents when the region is entered: the last stretch of host operations run on what the earlier
    stretches leave. -/
private theorem V_split (c : Dev nD) (b : Ref sig .tc) :
    Gen.V m c b = after (hostOps0_8 (F := Ideal)) (W m c) (Proc.devRef .tc b) := by
  show after (List.flatten ([hostOps0, hostOps0_1, hostOps0_2, hostOps0_3, hostOps0_4, hostOps0_5, hostOps0_6, hostOps0_7] ++ [hostOps0_8])) _ _ = _
  rw [List.flatten_append, after_append, List.flatten_cons, List.flatten_nil, List.append_nil]
  rfl

/-- The embeddings narrowed to bf16 are the embeddings. -/
theorem entry_v125 (c : Dev nD) :
    (Gen.V m c main_v125 : S16x128x128.Idx → EReal) = (Gen.V m c main_v123 : S16x128x128.Idx → EReal) := by
  rw [V_split, V_split]
  generalize W m c = W
  after_results
  exact truncf_ideal _ _ _

/-- The second kernel operand is the embeddings with node and channel axes exchanged. -/
theorem entry_v126 (c : Dev nD) (b : Fin 16) (d j : Fin 128) :
    (Gen.V m c main_v126 : S16x128x128.Idx → EReal) (ix3 b d j)
      = (Gen.V m c main_v123 : S16x128x128.Idx → EReal) (ix3 b j d) := by
  rw [V_split, V_split]
  generalize W m c = W
  after_results
  rw [truncf_ideal]
  exact transpose_apply _ _ _ (ix3 b d j) (ix3 b j d) (by intro a; fin_cases a <;> rfl)

/-- The three weight matrices reach the kernel as launched. -/
theorem entry_v127 (c : Dev nD) :
    (Gen.V m c main_v127 : S512x256.Idx → EReal) = m ((c.tc : Thread nD τ).loc main_arg23) := by
  refine Eq.trans ?_ (Gen.V_main_arg23 m c)
  rw [V_split, V_split]
  generalize W m c = W
  after_results
  exact truncf_ideal _ _ _

theorem entry_v128 (c : Dev nD) :
    (Gen.V m c main_v128 : S512x512.Idx → EReal) = m ((c.tc : Thread nD τ).loc main_arg25) := by
  refine Eq.trans ?_ (Gen.V_main_arg25 m c)
  rw [V_split, V_split]
  generalize W m c = W
  after_results
  exact truncf_ideal _ _ _

theorem entry_v129 (c : Dev nD) :
    (Gen.V m c main_v129 : S1x512.Idx → EReal) = m ((c.tc : Thread nD τ).loc main_arg27) := by
  refine Eq.trans ?_ (Gen.V_main_arg27 m c)
  rw [V_split, V_split]
  generalize W m c = W
  after_results
  exact truncf_ideal _ _ _

/-- A vector of length \`a\` laid out as an \`a × 1\` matrix reads, at \`(i, 0)\`, the vector at \`i\`. -/
private theorem shapeCast_a_a1_apply {α : Type} {a : ℕ} (x : (⟨1, ![a]⟩ : Shape).Idx → α)
    (h : (⟨1, ![a]⟩ : Shape).ShapeCasts ⟨2, ![a, 1]⟩) (i : Fin a) :
    shapeCast ⟨2, ![a, 1]⟩ x h (ix2 i (0 : Fin 1)) = x (ix1 i) :=
  shapeCast_apply x h _ _ (by
    rw [Shape.rowMajor_val_two, Shape.rowMajor_val_one]
    show i.val = i.val * 1 + 0
    omega)

/-- The three bias vectors reach the kernel as one-column matrices. -/
theorem entry_v130 (c : Dev nD) (h : Fin 512) :
    (Gen.V m c main_v130 : S512x1.Idx → EReal) (ix2 h (0 : Fin 1)) = m ((c.tc : Thread nD τ).loc main_arg24) (ix1 h) := by
  refine Eq.trans ?_ (congrFun (Gen.V_main_arg24 m c) (ix1 h))
  rw [V_split, V_split]
  generalize W m c = W
  after_results
  exact shapeCast_a_a1_apply _ _ h

theorem entry_v131 (c : Dev nD) (h : Fin 512) :
    (Gen.V m c main_v131 : S512x1.Idx → EReal) (ix2 h (0 : Fin 1)) = m ((c.tc : Thread nD τ).loc main_arg26) (ix1 h) := by
  refine Eq.trans ?_ (congrFun (Gen.V_main_arg26 m c) (ix1 h))
  rw [V_split, V_split]
  generalize W m c = W
  after_results
  exact shapeCast_a_a1_apply _ _ h

theorem entry_v132 (c : Dev nD) :
    (Gen.V m c main_v132 : S1x1.Idx → EReal) (ix2 (0 : Fin 1) (0 : Fin 1))
      = m ((c.tc : Thread nD τ).loc main_arg28) (ix1 (0 : Fin 1)) := by
  refine Eq.trans ?_ (congrFun (Gen.V_main_arg28 m c) (ix1 (0 : Fin 1)))
  rw [V_split, V_split]
  generalize W m c = W
  after_results
  exact shapeCast_a_a1_apply _ _ (0 : Fin 1)

end Cert.KernelIdeal.EdgeMlp

end
-- ==== Proof.Region.lean ====
/-
  What the kernel region leaves in its output array: the logits, as ONE function of the arrays the region is given.

  The grid has 16 × 8 points.  Point `(b, q)` loads graph `b`'s rows `16 q … 16 q + 15` of the node embeddings (its 16
  query nodes), graph `b`'s whole channel-major embedding (all 128 key nodes), and the six weight and bias arrays whole;
  it writes rows `16 q … 16 q + 15` of graph `b`'s `128 × 128` matrix of logits.  Row `r` of the block it writes, entry `j`,
  is the three-layer expression of `Rows` at the query node `16 q + r` and the key node `j`; read through the host
  operations that made the kernel's operands (`Entry`) that is the specification's logit of the pair `(16 q + r, j)`.
  The 128 blocks tile the output array, so the array ends holding the specification's logits everywhere.
-/
import proofs.«181565_j26508538151540_1_alg».proof.Proof.Gen.KernelIdeal.Frame
import proofs.«181565_j26508538151540_1_alg».proof.Proof.Spec
import proofs.«181565_j26508538151540_1_alg».proof.Proof.Rows
import proofs.«181565_j26508538151540_1_alg».proof.Proof.Entry
import Idealize.ShloMosaic.Lib.Pipeline.Value
import Idealize.ShloMosaic.Lib.ValueIdx
import Idealize.ShloMosaic.Lib.ValueLayout

set_option maxRecDepth 16384

noncomputable section

namespace Cert.KernelIdeal.EdgeMlp

open Idealize.ShloMosaic Idealize.ShloMosaic.TcCoe Idealize.SL.Sem Idealize.ShloMosaic.ValueIdx
open Idealize.ShloMosaic.Pipeline (Dat)
open Cert.KernelIdeal Cert.KernelIdeal.Gen

/-! ## The loaded blocks under the body's first casts -/

/-- The transposed query tile at `(channel d, node r)` is the loaded tile at `(0, r, d)`. -/
theorem pay9_apply (X : Vec Ideal S1x16x128 .bf16) (d : Fin 128) (r : Fin 16) :
    k0_pay9 X (ix2 d r) = X (ix3 (0 : Fin 1) r d) := by
  show transpose S128x16 [1, 0] (shapeCast S16x128 X shapeCasts_S1x16x128_S16x128) transposes_S16x128_p1_0_S128x16 (ix2 d r) = _
  rw [transpose_ix2_apply, shapeCast_1ab_ab_apply]

/-- The key block at `(channel d, node j)` is the loaded block at `(0, d, j)`. -/
theorem pay2_apply (X : Vec Ideal S1x128x128 .bf16) (d j : Fin 128) :
    k0_pay2 X (ix2 d j) = X (ix3 (0 : Fin 1) d j) := by
  unfold k0_pay2
  exact shapeCast_1ab_ab_apply _ _ d j

theorem pay3_eq (X : Vec Ideal S512x256 .bf16) : k0_pay3 X = X := shapeCast_self _ _
theorem pay4_eq (X : Vec Ideal S512x1 .f32) : k0_pay4 X = X := shapeCast_self _ _
theorem pay5_eq (X : Vec Ideal S512x512 .bf16) : k0_pay5 X = X := shapeCast_self _ _
theorem pay6_eq (X : Vec Ideal S512x1 .f32) : k0_pay6 X = X := shapeCast_self _ _
theorem pay7_eq (X : Vec Ideal S1x512 .bf16) : k0_pay7 X = X := shapeCast_self _ _
theorem pay8_eq (X : Vec Ideal S1x1 .f32) : k0_pay8 X = X := shapeCast_self _ _

/-! ## A block's row is the specification's logit -/

/-- If the query tile holds graph `b`'s nodes `16 q … 16 q + 15` of the embeddings `E`, the key block graph `b`'s embeddings
    channel-major, and the weight blocks the weights, then entry `(0, r, j)` of the output block is the specification's logit
    of the pair `(16 q + r, j)` in graph `b`. -/
theorem blockG_eq_logit (K : FVec Ideal S128x128 .bf16) (W1 : FVec Ideal S512x256 .bf16) (b1 : FVec Ideal S512x1 .f32)
    (W2 : FVec Ideal S512x512 .bf16) (b2 : FVec Ideal S512x1 .f32) (W3 : FVec Ideal S1x512 .bf16) (b3 : FVec Ideal S1x1 .f32)
    (Q : FVec Ideal S128x16 .bf16)
    (E : FVec Ideal Cert.EdgeMlp.SEmb .f32) (w1 : FVec Ideal Cert.EdgeMlp.SW1 .f32) (c1 : FVec Ideal Cert.EdgeMlp.SB .f32)
    (w2 : FVec Ideal Cert.EdgeMlp.SW2 .f32) (c2 : FVec Ideal Cert.EdgeMlp.SB .f32) (w3 : FVec Ideal Cert.EdgeMlp.SW3 .f32)
    (c3 : FVec Ideal Cert.EdgeMlp.SB3 .f32)
    (b : Fin 16) (i : Fin 128) (r : Fin 16)
    (hQ : ∀ d : Fin 128, Q (ix2 d r) = E (ix3 b i d))
    (hK : ∀ d j : Fin 128, K (ix2 d j) = E (ix3 b j d))
    (hW1 : ∀ (h : Fin 512) (d : Fin 256), W1 (ix2 h d) = w1 (ix2 h d)) (hb1 : ∀ h : Fin 512, b1 (ix2 h (0 : Fin 1)) = c1 (ix1 h))
    (hW2 : ∀ g h : Fin 512, W2 (ix2 g h) = w2 (ix2 g h)) (hb2 : ∀ g : Fin 512, b2 (ix2 g (0 : Fin 1)) = c2 (ix1 g))
    (hW3 : ∀ g : Fin 512, W3 (ix2 (0 : Fin 1) g) = w3 (ix2 (0 : Fin 1) g))
    (hb3 : b3 (ix2 (0 : Fin 1) (0 : Fin 1)) = c3 (ix1 (0 : Fin 1)))
    (j : Fin 128) :
    blockG K W1 b1 W2 b2 W3 b3 Q (ix3 (0 : Fin 1) r j) = Cert.EdgeMlp.logit E w1 c1 w2 c2 w3 c3 b i j := by
  show rowOut r.val (slice_ok r.val r.isLt) K W1 b1 W2 b2 W3 b3 Q (ix3 (0 : Fin 1) (0 : Fin 1) j) = _
  rw [rowOut_apply r.val r.isLt]
  unfold Cert.EdgeMlp.logit Cert.EdgeMlp.hidden2 Cert.EdgeMlp.hidden1
  simp only [hW3, hb3, hW2, hb2, hW1, hb1]
  refine congrArg (· + c3 (ix1 (0 : Fin 1))) (Finset.sum_congr rfl fun g _ => congrArg (w3 (ix2 (0 : Fin 1) g) * ·) ?_)
  refine congrArg (fun s => max (s + c2 (ix1 g)) 0) (Finset.sum_congr rfl fun h _ => congrArg (w2 (ix2 g h) * ·) ?_)
  refine congrArg (fun s => max (s + c1 (ix1 h)) 0) (Finset.sum_congr rfl fun d _ => congrArg (w1 (ix2 h d) * ·) ?_)
  unfold Cert.EdgeMlp.pairFeat
  by_cases hd : d.val < 128
  · rw [dif_pos hd, dif_pos hd]
    exact hQ ⟨d.val, hd⟩
  · rw [dif_neg hd, dif_neg hd]
    exact hK _ j

/-! ## The blocks at a grid point -/

variable (m : (ℓ : Loc nD τ sig) → Buf (Elt Ideal) ℓ)

/-- The array of logits the region computes from the arrays it is given. -/
abbrev regionG (c : Dev nD) : FVec Ideal Cert.EdgeMlp.SEmb .f32 :=
  Cert.EdgeMlp.logits (V m c main_v123) (m ((c.tc : Thread nD τ).loc main_arg23)) (m ((c.tc : Thread nD τ).loc main_arg24))
    (m ((c.tc : Thread nD τ).loc main_arg25)) (m ((c.tc : Thread nD τ).loc main_arg26))
    (m ((c.tc : Thread nD τ).loc main_arg27)) (m ((c.tc : Thread nD τ).loc main_arg28))

/-- The printed index maps, decided over the grid: the query tile moves with the output block on the graph and tile axes, the
    key block with it on the graph axis only, the weights stay put; the output's block indices stay in range. -/
theorem idx_facts : ∀ t : Fin cfg0.N,
    win0_0.index t (0 : Fin 3) = win0_8.index t (0 : Fin 3) ∧ win0_0.index t (1 : Fin 3) = win0_8.index t (1 : Fin 3)
    ∧ win0_0.index t (2 : Fin 3) = 0
    ∧ win0_1.index t (0 : Fin 3) = win0_8.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) ≤ 15 ∧ win0_8.index t (1 : Fin 3) ≤ 7 ∧ win0_8.index t (2 : Fin 3) = 0 :=
  (by decide +kernel : ∀ t : Fin grid0.N, _)

/-- Every block of the output array is some point's. -/
theorem idx_onto : ∀ (q0 : Fin 16) (q1 : Fin 8), ∃ t : Fin cfg0.N, win0_8.index t = ![q0.val, q1.val, 0] :=
  (by decide +kernel : ∀ (q0 : Fin 16) (q1 : Fin 8), ∃ t : Fin grid0.N, win0_8.index t = ![q0.val, q1.val, 0])

/-! ## From blocks to the array -/

/-- An index of the output array is in point `t`'s block iff each coordinate is in the block's range on its axis. -/
theorem mem_blk8 (t : Fin cfg0.N) (i : S16x128x128.Idx) :
    i ∈ ((cfg0.win 8).blk t).view.set ↔ ∀ a : Fin 3, win0_8.index t a * S1x16x128.size a ≤ (i a).val ∧ (i a).val < win0_8.index t a * S1x16x128.size a + S1x16x128.size a := by
  show i ∈ ((View.whole main_v133).slice (win0_8.rect t)).set ↔ _
  rw [View.set_slice_whole, Rect.mem_set_unit]
  exact Iff.rfl

/-- The 128 blocks cover the output array: entry `(b, i, j)` lies in the block of the point `(b, i / 16)`. -/
theorem cover8 (i : S16x128x128.Idx) :
    ∃ t : Fin cfg0.N, (cfg0.win 8).flush t = true ∧ i ∈ ((cfg0.win 8).blk t).view.set := by
  have hi0 : (i 0).val < 16 := (i 0).isLt
  have hi1 : (i 1).val < 128 := (i 1).isLt
  have hi2 : (i 2).val < 128 := (i 2).isLt
  obtain ⟨t, ht⟩ := idx_onto ⟨(i 0).val, hi0⟩ ⟨(i 1).val / 16, by omega⟩
  have q0 : win0_8.index t (0 : Fin 3) = (i 0).val := congrFun ht 0
  have q1 : win0_8.index t (1 : Fin 3) = (i 1).val / 16 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 16 ≤ (i 1).val ∧ (i 1).val < win0_8.index t (1 : Fin 3) * 16 + 16; omega
  | ⟨2, _⟩ => show win0_8.index t (2 : Fin 3) * 128 ≤ (i 2).val ∧ (i 2).val < win0_8.index t (2 : Fin 3) * 128 + 128; omega

set_option maxHeartbeats 4000000 in
/-- WHAT POINT `t` WRITES BACK is block `t` of the specification's logits of the arrays the region is given. -/
theorem flushed8_eq (c : Dev nD) (t : Fin cfg0.N) :
    (dats (F := Ideal) m 0 c).flushed 8 t = ((cfg0.win 8).blk t).view.read (Elt Ideal) (regionG m c) := by
  show (cfg0.win 8).cut (grid0.coords t) ((dats m 0 c).after 8 t) = _
  rw [after0_8, out0_8_eq]
  obtain ⟨e00, e01, e02, e10, e11, e12, e20, e21, e30, e31, e40, e41, e50, e51, e60, e61, e70, e71, l0, l1, e82⟩ := idx_facts t
  funext y
  have hy0 : (y 0).val = 0 := by have : (y 0).val < 1 := (y 0).isLt; omega
  have hy1 : (y 1).val < 16 := (y 1).isLt
  have hy2 : (y 2).val < 128 := (y 2).isLt
  obtain ⟨r, j, rfl⟩ : ∃ (r : Fin 16) (j : Fin 128), y = ix3 (0 : Fin 1) r j :=
    ⟨⟨(y 1).val, hy1⟩, ⟨(y 2).val, hy2⟩, by
      funext a; apply Fin.ext
      match a with
      | ⟨0, _⟩ => exact hy0
      | ⟨1, _⟩ => rfl
      | ⟨2, _⟩ => rfl⟩
  have he : ((cfg0.win 8).blk t).view.emb (ix3 (0 : Fin 1) r j)
      = ix3 (⟨win0_8.index t (0 : Fin 3), by omega⟩ : Fin 16) (⟨win0_8.index t (1 : Fin 3) * 16 + r.val, by have := r.isLt; omega⟩ : Fin 128) j := by
    funext a; apply Fin.ext
    match a with
    | ⟨0, _⟩ => show win0_8.index t (0 : Fin 3) * 1 + 1 * 0 = win0_8.index t (0 : Fin 3); omega
    | ⟨1, _⟩ => show win0_8.index t (1 : Fin 3) * 16 + 1 * r.val = win0_8.index t (1 : Fin 3) * 16 + r.val; omega
    | ⟨2, _⟩ => show win0_8.index t (2 : Fin 3) * 128 + 1 * j.val = j.val; omega
  show blockG (k0_pay2 (iblk m c 1 t)) (k0_pay3 (iblk m c 2 t)) (k0_pay4 (iblk m c 3 t)) (k0_pay5 (iblk m c 4 t))
      (k0_pay6 (iblk m c 5 t)) (k0_pay7 (iblk m c 6 t)) (k0_pay8 (iblk m c 7 t)) (k0_pay9 (iblk m c 0 t)) (ix3 (0 : Fin 1) r j)
    = regionG m c (((cfg0.win 8).blk t).view.emb (ix3 (0 : Fin 1) r j))
  rw [he]
  refine blockG_eq_logit (k0_pay2 (iblk m c 1 t)) (k0_pay3 (iblk m c 2 t)) (k0_pay4 (iblk m c 3 t)) (k0_pay5 (iblk m c 4 t))
      (k0_pay6 (iblk m c 5 t)) (k0_pay7 (iblk m c 6 t)) (k0_pay8 (iblk m c 7 t)) (k0_pay9 (iblk m c 0 t))
      (V m c main_v123) (m ((c.tc : Thread nD τ).loc main_arg23)) (m ((c.tc : Thread nD τ).loc main_arg24))
      (m ((c.tc : Thread nD τ).loc main_arg25)) (m ((c.tc : Thread nD τ).loc main_arg26))
      (m ((c.tc : Thread nD τ).loc main_arg27)) (m ((c.tc : Thread nD τ).loc main_arg28))
      (⟨win0_8.index t (0 : Fin 3), by omega⟩ : Fin 16) (⟨win0_8.index t (1 : Fin 3) * 16 + r.val, by have := r.isLt; omega⟩ : Fin 128) r
      ?_ ?_ ?_ ?_ ?_ ?_ ?_ ?_ j
  · -- the query tile: graph b's nodes 16 q … 16 q + 15
    intro d
    refine (pay9_apply (iblk m c 0 t) d r).trans ?_
    show (V m c main_v125 : S16x128x128.Idx → EReal) (((cfg0.win 0).blk t).view.emb (ix3 (0 : Fin 1) r d)) = _
    refine (congrFun (entry_v125 m c) _).trans (congrArg (V m c main_v123 : S16x128x128.Idx → EReal) ?_)
    funext a; apply Fin.ext
    match a with
    | ⟨0, _⟩ => show win0_0.index t (0 : Fin 3) * 1 + 1 * 0 = win0_8.index t (0 : Fin 3); omega
    | ⟨1, _⟩ => show win0_0.index t (1 : Fin 3) * 16 + 1 * r.val = win0_8.index t (1 : Fin 3) * 16 + r.val; omega
    | ⟨2, _⟩ => show win0_0.index t (2 : Fin 3) * 128 + 1 * d.val = d.val; omega
  · -- the key block: graph b's embeddings, channel-major
    intro d j'
    refine (pay2_apply (iblk m c 1 t) d j').trans ?_
    show (V m c main_v126 : S16x128x128.Idx → EReal) (((cfg0.win 1).blk t).view.emb (ix3 (0 : Fin 1) d j')) = _
    have hidx : ((cfg0.win 1).blk t).view.emb (ix3 (0 : Fin 1) d j') = ix3 (⟨win0_8.index t (0 : Fin 3), by omega⟩ : Fin 16) d j' := by
      funext a; apply Fin.ext
      match a with
      | ⟨0, _⟩ => show win0_1.index t (0 : Fin 3) * 1 + 1 * 0 = win0_8.index t (0 : Fin 3); omega
      | ⟨1, _⟩ => show win0_1.index t (1 : Fin 3) * 128 + 1 * d.val = d.val; omega
      | ⟨2, _⟩ => show win0_1.index t (2 : Fin 3) * 128 + 1 * j'.val = j'.val; omega
    rw [hidx]
    exact entry_v126 m c _ d j'
  · -- first layer's weights
    intro h d
    refine (congrFun (pay3_eq (iblk m c 2 t)) _).trans ?_
    show (V m c main_v127 : S512x256.Idx → EReal) (((cfg0.win 2).blk t).view.emb (ix2 h d)) = _
    refine (congrFun (entry_v127 m c) _).trans (congrArg (m ((c.tc : Thread nD τ).loc main_arg23)) ?_)
    funext a; apply Fin.ext
    match a with
    | ⟨0, _⟩ => show win0_2.index t (0 : Fin 2) * 512 + 1 * h.val = h.val; omega
    | ⟨1, _⟩ => show win0_2.index t (1 : Fin 2) * 256 + 1 * d.val = d.val; omega
  · -- first layer's bias
    intro h
    refine (congrFun (pay4_eq (iblk m c 3 t)) _).trans ?_
    show (V m c main_v130 : S512x1.Idx → EReal) (((cfg0.win 3).blk t).view.emb (ix2 h (0 : Fin 1))) = _
    have hidx : ((cfg0.win 3).blk t).view.emb (ix2 h (0 : Fin 1)) = ix2 h (0 : Fin 1) := by
      funext a; apply Fin.ext
      match a with
      | ⟨0, _⟩ => show win0_3.index t (0 : Fin 2) * 512 + 1 * h.val = h.val; omega
      | ⟨1, _⟩ => show win0_3.index t (1 : Fin 2) * 1 + 1 * 0 = 0; omega
    rw [hidx]
    exact entry_v130 m c h
  · -- second layer's weights
    intro g h
    refine (congrFun (pay5_eq (iblk m c 4 t)) _).trans ?_
    show (V m c main_v128 : S512x512.Idx → EReal) (((cfg0.win 4).blk t).view.emb (ix2 g h)) = _
    refine (congrFun (entry_v128 m c) _).trans (congrArg (m ((c.tc : Thread nD τ).loc main_arg25)) ?_)
    funext a; apply Fin.ext
    match a with
    | ⟨0, _⟩ => show win0_4.index t (0 : Fin 2) * 512 + 1 * g.val = g.val; omega
    | ⟨1, _⟩ => show win0_4.index t (1 : Fin 2) * 512 + 1 * h.val = h.val; omega
  · -- second layer's bias
    intro g
    refine (congrFun (pay6_eq (iblk m c 5 t)) _).trans ?_
    show (V m c main_v131 : S512x1.Idx → EReal) (((cfg0.win 5).blk t).view.emb (ix2 g (0 : Fin 1))) = _
    have hidx : ((cfg0.win 5).blk t).view.emb (ix2 g (0 : Fin 1)) = ix2 g (0 : Fin 1) := by
      funext a; apply Fin.ext
      match a with
      | ⟨0, _⟩ => show win0_5.index t (0 : Fin 2) * 512 + 1 * g.val = g.val; omega
      | ⟨1, _⟩ => show win0_5.index t (1 : Fin 2) * 1 + 1 * 0 = 0; omega
    rw [hidx]
    exact entry_v131 m c g
  · -- output layer's weights
    intro g
    refine (congrFun (pay7_eq (iblk m c 6 t)) _).trans ?_
    show (V m c main_v129 : S1x512.Idx → EReal) (((cfg0.win 6).blk t).view.emb (ix2 (0 : Fin 1) g)) = _
    refine (congrFun (entry_v129 m c) _).trans (congrArg (m ((c.tc : Thread nD τ).loc main_arg27)) ?_)
    funext a; apply Fin.ext
    match a with
    | ⟨0, _⟩ => show win0_6.index t (0 : Fin 2) * 1 + 1 * 0 = 0; omega
    | ⟨1, _⟩ => show win0_6.index t (1 : Fin 2) * 512 + 1 * g.val = g.val; omega
  · -- output layer's bias
    refine (congrFun (pay8_eq (iblk m c 7 t)) _).trans ?_
    show (V m c main_v132 : S1x1.Idx → EReal) (((cfg0.win 7).blk t).view.emb (ix2 (0 : Fin 1) (0 : Fin 1))) = _
    have hidx : ((cfg0.win 7).blk t).view.emb (ix2 (0 : Fin 1) (0 : Fin 1)) = ix2 (0 : Fin 1) (0 : Fin 1) := by
      funext a; apply Fin.ext
      match a with
      | ⟨0, _⟩ => show win0_7.index t (0 : Fin 2) * 1 + 1 * 0 = 0; omega
      | ⟨1, _⟩ => show win0_7.index t (1 : Fin 2) * 1 + 1 * 0 = 0; omega
    rw [hidx]
    exact entry_v132 m c

/-- THE OUTPUT ARRAY after the region: the specification's logits of the embeddings as the region finds them and of the
    launched weights. -/
theorem region_eq (c : Dev nD) : (dats (F := Ideal) m 0 c).arrAt 8 cfg0.N = regionG m c :=
  (dats (F := Ideal) m 0 c).arrAt_eq_of_cover 8 (regionG m c) (fun t _ => flushed8_eq m c t) cover8

end Cert.KernelIdeal.EdgeMlp

end
-- ==== Proof.KernelTail.lean ====
/-
  The last stretch of the kernel's program, read as a value.

  After the one region the program applies twelve array operations: ten build the mask "row ≥ column" from two index
  grids and put zero where it holds, the last two transpose the two node axes and add.  None of the mask's operations
  reads what the region wrote; only the select does.  So the final array is `upperSym` of the region's output array, and
  the run of the whole program ends with that value in the result buffer and every argument buffer as launched.
-/
import proofs.«181565_j26508538151540_1_alg».proof.Proof.Gen.KernelIdeal.Frame
import proofs.«181565_j26508538151540_1_alg».proof.Proof.Spec
import Idealize.ShloMosaic.Lib.StableHlo.Run
import Idealize.ShloMosaic.Lib.Pipeline.FrameSuffix

set_option maxRecDepth 16384

noncomputable section

namespace Cert.KernelIdeal.EdgeMlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (l : Loc nD τ sig) → Buf (Elt Ideal) l)

/-- The last twelve operations applied to the region's exit contents are `upperSym` of the region's output array. -/
theorem tail_eq (c : Dev nD) :
    (Pipeline.afterTail₀ cfgs (dats (F := Ideal) m) 0 (V0 m) [hostOps1, hostOps1_1] c main_v136 : FVec Ideal Cert.EdgeMlp.SEmb .f32)
      = Cert.EdgeMlp.upperSym bcast_S_S128x128 bcast_S128x128_S16x128x128_1_2 bcast_S_S16x128x128 transposes_S16x128x128_S16x128x128_0_2_1
          ((dats (F := Ideal) m 0 c).arrAt 8 cfg0.N) := by
  unfold Pipeline.afterTail₀
  generalize V0 m c = Vc
  generalize hA : (fun w => (dats (F := Ideal) m 0 c).arrAt w (cfgs 0).N) = A
  have hA8 : (dats (F := Ideal) m 0 c).arrAt 8 cfg0.N = A 8 := congrFun hA 8
  rw [hA8]
  clear hA hA8
  have e : Pipeline.withArrays (cfgs 0).spec c Vc A (Proc.devRef .tc main_v133) = A 8 :=
    Pipeline.withArrays_arr spec0 launch0.win.arr_inj c Vc A 8
  simp only [hostOps1, hostOps1_1, List.flatten_cons, List.flatten_nil, List.append_nil, List.cons_append, List.nil_append]
  after_results
  simp only [StableHlo.TRef.ofBuf, StableHlo.TRef.toBuf, cast_eq]
  rw [e]
  unfold Cert.EdgeMlp.upperSym
  rfl

/-- The run of the whole program at the extended reals: it terminates, the result buffer holds whatever value `G` the
    last stretch is shown to compute, and every argument buffer is as launched. -/
theorem run_value (ρ : Dev nD → PrngReg) (G : (c : Dev nD) → FVec Ideal Cert.EdgeMlp.SEmb .f32)
    (hG : ∀ c, (Pipeline.afterTail₀ cfgs (dats (F := Ideal) m) 0 (V0 m) [hostOps1, hostOps1_1] c main_v136 : FVec Ideal Cert.EdgeMlp.SEmb .f32) = G c) :
    θ_run (defs (F := Ideal)) (onTc (τ := τ) (main (F := Ideal))) ⟨m, fun _ => 0, ρ⟩ (fun r => ∀ c : Dev nD,
      r.2.mem ((c.tc : Thread nD τ).loc main_v136) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  (θ_run defs _ _).mono (fun r h c => ⟨((h c).2 main_v136 (Pipeline.mem_restRefs_of main_v136 (by decide) (by decide))).trans (hG c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c)),
      (((h c).2 main_arg24 (Pipeline.mem_restRefs_of main_arg24 (by decide) (by decide))).trans (W_main_arg24 m (dats m) c)),
      (((h c).2 main_arg25 (Pipeline.mem_restRefs_of main_arg25 (by decide) (by decide))).trans (W_main_arg25 m (dats m) c)),
      (((h c).2 main_arg26 (Pipeline.mem_restRefs_of main_arg26 (by decide) (by decide))).trans (W_main_arg26 m (dats m) c)),
      (((h c).2 main_arg27 (Pipeline.mem_restRefs_of main_arg27 (by decide) (by decide))).trans (W_main_arg27 m (dats m) c)),
      (((h c).2 main_arg28 (Pipeline.mem_restRefs_of main_arg28 (by decide) (by decide))).trans (W_main_arg28 m (dats m) c))⟩) (run_main m ρ)

end Cert.KernelIdeal.EdgeMlp

end
-- ==== Proof.Prefix.lean ====
/-
  The host program up to the node embeddings, read as one value.

  The kernel's program and the reference run the same 146 host operations, in the same order and on the same 23
  argument arrays, before they part: both end that stretch with the node embeddings, one value per (graph, node,
  channel).  Folding the kernel program's operations over the launch memory gives the embeddings as a composed term
  of the 23 arguments; the reference's stage functions compose to the same term, operation for operation (the two
  programs' shape names stand for the same literals and their contraction, gather and scatter records have the same
  fields), so the two sides are one term and no array is evaluated.
-/
import proofs.«181565_j26508538151540_1_alg».proof.Proof.Gen.KernelIdeal.Frame
import proofs.«181565_j26508538151540_1_alg».proof.Proof.RefRead
import Idealize.ShloMosaic.Lib.StableHlo.Run

noncomputable section

namespace Cert.KernelIdeal.EdgeMlp

open Idealize.ShloMosaic Idealize.ShloMosaic.TcCoe Idealize.SL.Sem Idealize.ShloMosaic.StableHlo
open Cert.KernelIdeal Cert.KernelIdeal.Gen

variable (m : (l : Loc nD τ sig) → Buf (Elt Ideal) l)

set_option maxRecDepth 8192 in
set_option maxHeartbeats 4000000 in
/-- The node embeddings the kernel's program holds when its region is entered are the reference's, as a function of
    the 23 arguments both compute them from. -/
theorem prefix_eq (c : Dev nD) :
    (Gen.V m c main_v123 : FVec Ideal (⟨3, ![16, 128, 128]⟩ : Shape) .f32)
      = Cert.ReferenceIdeal.Read.val_main_v123 (F := Ideal)
          (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17))
          (m ((c.tc : Thread nD τ).loc main_arg18))
          (m ((c.tc : Thread nD τ).loc main_arg19))
          (m ((c.tc : Thread nD τ).loc main_arg20))
          (m ((c.tc : Thread nD τ).loc main_arg21))
          (m ((c.tc : Thread nD τ).loc main_arg22)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8,
    List.flatten_cons, List.flatten_nil, List.append_nil, List.cons_append, List.nil_append]
  after_results_simp
  rfl

end Cert.KernelIdeal.EdgeMlp

end
-- ==== Proof.RefSide.lean ====
/-
  The reference program after the node embedding, read one element at a time.

  The program tiles the embedding twice (node `i`'s row along one new axis, node `j`'s along another), joins the two
  tilings on the channel axis, and applies three dense layers, each a contraction with a weight matrix followed by a
  broadcast bias, the first two followed by a maximum with a broadcast zero.  Read at the index `(b, i, j, ·)` every
  one of these arrays is the corresponding quantity of the specification: the joined array is the pair's feature
  vector, the two clipped layers are `hidden1` and `hidden2`, and the last layer, reshaped from `[16,128,128,1]` to
  `[16,128,128]`, is `logit`.  The program multiplies activation by weight and the specification weight by
  activation; multiplication on the extended reals is commutative, so the sums agree term by term.
  The three operations after the logits (mask, transpose, add) are the specification's `upperSym` verbatim.
-/
import proofs.«181565_j26508538151540_1_alg».proof.Proof.RefRead
import proofs.«181565_j26508538151540_1_alg».proof.Proof.Spec
import Idealize.ShloMosaic.Lib.Pipeline.Value
import Idealize.ShloMosaic.Lib.ValueIdx
import Idealize.ShloMosaic.PureOps.Ideal.Laws

noncomputable section

namespace Cert.ReferenceIdeal.EdgeMlp

open Cert.ReferenceIdeal Cert.ReferenceIdeal.Gen Cert.ReferenceIdeal.Read Idealize.ShloMosaic Idealize.ShloMosaic.ValueIdx
open Cert.EdgeMlp (pairFeat hidden1 hidden2 logit logits)

/-! ## Where each layout operation reads, at an index given by its coordinates -/

/-- The reshape `[16,128,128,1] → [16,128,128]` reads `(b, i, j, 0)` at `(b, i, j)`. -/
theorem idx_reshape (b : Fin 16) (i j : Fin 128) : idx_main_v143 (ix3 b i j) = ix4 b i j (0 : Fin 1) := by
  funext a
  have hb := b.isLt; have hi := i.isLt; have hj := j.isLt
  match a with
  | ⟨0, _⟩ => exact Fin.ext (by show ((b.val * 128 + i.val) * 128 + j.val) / 16384 = b.val; omega)
  | ⟨1, _⟩ => exact Fin.ext (by show ((b.val * 128 + i.val) * 128 + j.val) / 128 % 128 = i.val; omega)
  | ⟨2, _⟩ => exact Fin.ext (by show ((b.val * 128 + i.val) * 128 + j.val) / 1 % 128 = j.val; omega)
  | ⟨3, _⟩ => rfl

/-- Node `i`'s tiling reads the embedding at `(b, i, c)`. -/
theorem idx_tile_i (b : Fin 16) (i j c : Fin 128) : idx_main_v124 (idx_main_v125 (ix4 b i j c)) = ix3 b i c := by
  funext a; match a with | ⟨0, _⟩ => rfl | ⟨1, _⟩ => rfl | ⟨2, _⟩ => rfl

/-- Node `j`'s tiling reads the embedding at `(b, j, c)`. -/
theorem idx_tile_j (b : Fin 16) (i j c : Fin 128) : idx_main_v126 (idx_main_v127 (ix4 b i j c)) = ix3 b j c := by
  funext a; match a with | ⟨0, _⟩ => rfl | ⟨1, _⟩ => rfl | ⟨2, _⟩ => rfl

/-- The first bias is read at the unit. -/
theorem idx_bias1 (b : Fin 16) (i j : Fin 128) (h : Fin 512) : idx_main_v130 (idx_main_v131 (ix4 b i j h)) = ix1 h := by
  funext a; match a with | ⟨0, _⟩ => rfl

/-- The second bias is read at the unit. -/
theorem idx_bias2 (b : Fin 16) (i j : Fin 128) (g : Fin 512) : idx_main_v135 (idx_main_v136 (ix4 b i j g)) = ix1 g := by
  funext a; match a with | ⟨0, _⟩ => rfl

/-- The last bias has one entry. -/
theorem idx_bias3 (b : Fin 16) (i j : Fin 128) (z : Fin 1) : idx_main_v140 (idx_main_v141 (ix4 b i j z)) = ix1 (0 : Fin 1) := by
  funext a; match a with | ⟨0, _⟩ => rfl

/-- Each contraction reads its left operand at `(b, i, j, k)` and its weight at `(unit, k)`. -/
theorem lidx1 (b : Fin 16) (i j : Fin 128) (h : Fin 512) (d : Fin 256) : lidx_main_v129 (ix4 b i j h) d = ix4 b i j d := by
  funext a; match a with | ⟨0, _⟩ => rfl | ⟨1, _⟩ => rfl | ⟨2, _⟩ => rfl | ⟨3, _⟩ => rfl
theorem ridx1 (b : Fin 16) (i j : Fin 128) (h : Fin 512) (d : Fin 256) : ridx_main_v129 (ix4 b i j h) d = ix2 h d := by
  funext a; match a with | ⟨0, _⟩ => rfl | ⟨1, _⟩ => rfl
theorem lidx2 (b : Fin 16) (i j : Fin 128) (g h : Fin 512) : lidx_main_v134 (ix4 b i j g) h = ix4 b i j h := by
  funext a; match a with | ⟨0, _⟩ => rfl | ⟨1, _⟩ => rfl | ⟨2, _⟩ => rfl | ⟨3, _⟩ => rfl
theorem ridx2 (b : Fin 16) (i j : Fin 128) (g h : Fin 512) : ridx_main_v134 (ix4 b i j g) h = ix2 g h := by
  funext a; match a with | ⟨0, _⟩ => rfl | ⟨1, _⟩ => rfl
theorem lidx3 (b : Fin 16) (i j : Fin 128) (z : Fin 1) (g : Fin 512) : lidx_main_v139 (ix4 b i j z) g = ix4 b i j g := by
  funext a; match a with | ⟨0, _⟩ => rfl | ⟨1, _⟩ => rfl | ⟨2, _⟩ => rfl | ⟨3, _⟩ => rfl
theorem ridx3 (b : Fin 16) (i j : Fin 128) (g : Fin 512) : ridx_main_v139 (ix4 b i j (0 : Fin 1)) g = ix2 (0 : Fin 1) g := by
  funext a; match a with | ⟨0, _⟩ => rfl | ⟨1, _⟩ => rfl

section Layers

variable (x0 : (⟨S4096x128, .f32⟩ : BufTy).Contents (Elt Ideal)) (x1 : (⟨S16x16, .f32⟩ : BufTy).Contents (Elt Ideal)) (x2 : (⟨S2x65536, .i32⟩ : BufTy).Contents (Elt Ideal)) (x3 : (⟨S4096, .i32⟩ : BufTy).Contents (Elt Ideal)) (x4 : (⟨S256x128, .f32⟩ : BufTy).Contents (Elt Ideal)) (x5 : (⟨S256, .f32⟩ : BufTy).Contents (Elt Ideal)) (x6 : (⟨S256x128, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S64x256, .f32⟩ : BufTy).Contents (Elt Ideal)) (x18 : (⟨S64, .f32⟩ : BufTy).Contents (Elt Ideal)) (x19 : (⟨S512x80, .f32⟩ : BufTy).Contents (Elt Ideal)) (x20 : (⟨S512, .f32⟩ : BufTy).Contents (Elt Ideal)) (x21 : (⟨S16384x512, .f32⟩ : BufTy).Contents (Elt Ideal)) (x22 : (⟨S16384, .f32⟩ : BufTy).Contents (Elt Ideal)) (x23 : (⟨S512x256, .f32⟩ : BufTy).Contents (Elt Ideal)) (x24 : (⟨S512, .f32⟩ : BufTy).Contents (Elt Ideal)) (x25 : (⟨S512x512, .f32⟩ : BufTy).Contents (Elt Ideal)) (x26 : (⟨S512, .f32⟩ : BufTy).Contents (Elt Ideal)) (x27 : (⟨S1x512, .f32⟩ : BufTy).Contents (Elt Ideal)) (x28 : (⟨S1, .f32⟩ : BufTy).Contents (Elt Ideal))

/-! ## The pair's feature vector -/

/-- The joined tilings at `(b, i, j, d)`: node `i`'s channel `d` below 128, node `j`'s channel `d - 128` from there on. -/
theorem pair_apply (b : Fin 16) (i j : Fin 128) (d : Fin 256) :
    val_main_v128 (F := Ideal) x0 x1 x2 x3 x4 x5 x6 x7 x8 x9 x10 x11 x12 x13 x14 x15 x16 x17 x18 x19 x20 x21 x22 (ix4 b i j d) = pairFeat (val_main_v123 (F := Ideal) x0 x1 x2 x3 x4 x5 x6 x7 x8 x9 x10 x11 x12 x13 x14 x15 x16 x17 x18 x19 x20 x21 x22) b i j d := by
  unfold val_main_v128 pairFeat
  by_cases h : d.val < 128
  · rw [dif_pos h]
    refine (concatenate_pair_apply_left _ _ _ concatenates_S16x128x128x128_S16x128x128x128_S16x128x128x256_d3
      (ix4 b i j d) rfl (ix4 b i j (⟨d.val, h⟩ : Fin 128)) (fun a => match a with | ⟨0, _⟩ => rfl | ⟨1, _⟩ => rfl | ⟨2, _⟩ => rfl | ⟨3, _⟩ => rfl)).trans ?_
    rw [val_main_v125_apply, val_main_v124_apply, idx_tile_i]
  · rw [dif_neg h]
    refine (concatenate_pair_apply_right _ _ _ concatenates_S16x128x128x128_S16x128x128x128_S16x128x128x256_d3
      (ix4 b i j d) rfl rfl (ix4 b i j (⟨d.val - 128, by have := d.isLt; omega⟩ : Fin 128))
      (fun a ha => match a, ha with
        | ⟨0, _⟩, _ => rfl | ⟨1, _⟩, _ => rfl | ⟨2, _⟩, _ => rfl | ⟨3, _⟩, ha => (ha (Fin.ext rfl)).elim)
      (by show d.val - 128 + 128 = d.val; omega)).trans ?_
    rw [val_main_v127_apply, val_main_v126_apply, idx_tile_j]

/-! ## The two clipped layers -/

theorem hidden1_apply (b : Fin 16) (i j : Fin 128) (h : Fin 512) :
    val_main_v133 (F := Ideal) x0 x1 x2 x3 x4 x5 x6 x7 x8 x9 x10 x11 x12 x13 x14 x15 x16 x17 x18 x19 x20 x21 x22 x23 x24 (ix4 b i j h) = hidden1 (val_main_v123 (F := Ideal) x0 x1 x2 x3 x4 x5 x6 x7 x8 x9 x10 x11 x12 x13 x14 x15 x16 x17 x18 x19 x20 x21 x22) x23 x24 b i j h := by
  rw [val_main_v133_apply, val_main_v132_apply, val_main_v129_apply, val_main_v131_apply, val_main_v130_apply,
    val_main_call4_v0_apply, val_main_call4_cst_apply, idx_bias1]
  have hs : (∑ d : Fin 256, val_main_v128 (F := Ideal) x0 x1 x2 x3 x4 x5 x6 x7 x8 x9 x10 x11 x12 x13 x14 x15 x16 x17 x18 x19 x20 x21 x22 (lidx_main_v129 (ix4 b i j h) d) * x23 (ridx_main_v129 (ix4 b i j h) d))
      = ∑ d : Fin 256, x23 (ix2 h d) * pairFeat (val_main_v123 (F := Ideal) x0 x1 x2 x3 x4 x5 x6 x7 x8 x9 x10 x11 x12 x13 x14 x15 x16 x17 x18 x19 x20 x21 x22) b i j d :=
    Finset.sum_congr rfl fun d _ => by rw [lidx1, ridx1, pair_apply, mul_comm]
  rw [hs]
  simp only [Ideal.maximumf_def, Ideal.addf_def, Ideal.ofBits_def, Ideal.ofBits_zero_f32]
  rfl

theorem hidden2_apply (b : Fin 16) (i j : Fin 128) (g : Fin 512) :
    val_main_v138 (F := Ideal) x0 x1 x2 x3 x4 x5 x6 x7 x8 x9 x10 x11 x12 x13 x14 x15 x16 x17 x18 x19 x20 x21 x22 x23 x24 x25 x26 (ix4 b i j g) = hidden2 (val_main_v123 (F := Ideal) x0 x1 x2 x3 x4 x5 x6 x7 x8 x9 x10 x11 x12 x13 x14 x15 x16 x17 x18 x19 x20 x21 x22) x23 x24 x25 x26 b i j g := by
  rw [val_main_v138_apply, val_main_v137_apply, val_main_v134_apply, val_main_v136_apply, val_main_v135_apply,
    val_main_call5_v0_apply, val_main_call5_cst_apply, idx_bias2]
  have hs : (∑ h : Fin 512, val_main_v133 (F := Ideal) x0 x1 x2 x3 x4 x5 x6 x7 x8 x9 x10 x11 x12 x13 x14 x15 x16 x17 x18 x19 x20 x21 x22 x23 x24 (lidx_main_v134 (ix4 b i j g) h) * x25 (ridx_main_v134 (ix4 b i j g) h))
      = ∑ h : Fin 512, x25 (ix2 g h) * hidden1 (val_main_v123 (F := Ideal) x0 x1 x2 x3 x4 x5 x6 x7 x8 x9 x10 x11 x12 x13 x14 x15 x16 x17 x18 x19 x20 x21 x22) x23 x24 b i j h :=
    Finset.sum_congr rfl fun h _ => by rw [lidx2, ridx2, hidden1_apply, mul_comm]
  rw [hs]
  simp only [Ideal.maximumf_def, Ideal.addf_def, Ideal.ofBits_def, Ideal.ofBits_zero_f32]
  rfl

/-! ## The logit -/

theorem logit_apply (b : Fin 16) (i j : Fin 128) :
    val_main_v143 (F := Ideal) x0 x1 x2 x3 x4 x5 x6 x7 x8 x9 x10 x11 x12 x13 x14 x15 x16 x17 x18 x19 x20 x21 x22 x23 x24 x25 x26 x27 x28 (ix3 b i j) = logit (val_main_v123 (F := Ideal) x0 x1 x2 x3 x4 x5 x6 x7 x8 x9 x10 x11 x12 x13 x14 x15 x16 x17 x18 x19 x20 x21 x22) x23 x24 x25 x26 x27 x28 b i j := by
  rw [val_main_v143_apply, idx_reshape, val_main_v142_apply, val_main_v139_apply, val_main_v141_apply, val_main_v140_apply,
    idx_bias3]
  have hs : (∑ g : Fin 512, val_main_v138 (F := Ideal) x0 x1 x2 x3 x4 x5 x6 x7 x8 x9 x10 x11 x12 x13 x14 x15 x16 x17 x18 x19 x20 x21 x22 x23 x24 x25 x26 (lidx_main_v139 (ix4 b i j (0 : Fin 1)) g) * x27 (ridx_main_v139 (ix4 b i j (0 : Fin 1)) g))
      = ∑ g : Fin 512, x27 (ix2 (0 : Fin 1) g) * hidden2 (val_main_v123 (F := Ideal) x0 x1 x2 x3 x4 x5 x6 x7 x8 x9 x10 x11 x12 x13 x14 x15 x16 x17 x18 x19 x20 x21 x22) x23 x24 x25 x26 b i j g :=
    Finset.sum_congr rfl fun g _ => by rw [lidx3, ridx3, hidden2_apply, mul_comm]
  rw [hs]
  simp only [Ideal.addf_def]
  rfl

end Layers

/-! ## The two statements -/

/-- The reference's logits are the specification's, of the reference's own embedding. -/
theorem ref_logits (x0 : (⟨S4096x128, .f32⟩ : BufTy).Contents (Elt Ideal)) (x1 : (⟨S16x16, .f32⟩ : BufTy).Contents (Elt Ideal)) (x2 : (⟨S2x65536, .i32⟩ : BufTy).Contents (Elt Ideal)) (x3 : (⟨S4096, .i32⟩ : BufTy).Contents (Elt Ideal)) (x4 : (⟨S256x128, .f32⟩ : BufTy).Contents (Elt Ideal)) (x5 : (⟨S256, .f32⟩ : BufTy).Contents (Elt Ideal)) (x6 : (⟨S256x128, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S64x256, .f32⟩ : BufTy).Contents (Elt Ideal)) (x18 : (⟨S64, .f32⟩ : BufTy).Contents (Elt Ideal)) (x19 : (⟨S512x80, .f32⟩ : BufTy).Contents (Elt Ideal)) (x20 : (⟨S512, .f32⟩ : BufTy).Contents (Elt Ideal)) (x21 : (⟨S16384x512, .f32⟩ : BufTy).Contents (Elt Ideal)) (x22 : (⟨S16384, .f32⟩ : BufTy).Contents (Elt Ideal)) (x23 : (⟨S512x256, .f32⟩ : BufTy).Contents (Elt Ideal)) (x24 : (⟨S512, .f32⟩ : BufTy).Contents (Elt Ideal)) (x25 : (⟨S512x512, .f32⟩ : BufTy).Contents (Elt Ideal)) (x26 : (⟨S512, .f32⟩ : BufTy).Contents (Elt Ideal)) (x27 : (⟨S1x512, .f32⟩ : BufTy).Contents (Elt Ideal)) (x28 : (⟨S1, .f32⟩ : BufTy).Contents (Elt Ideal)) :
    Cert.ReferenceIdeal.Read.val_main_v143 (F := Ideal) x0 x1 x2 x3 x4 x5 x6 x7 x8 x9 x10 x11 x12 x13 x14 x15 x16 x17 x18 x19 x20 x21 x22 x23 x24 x25 x26 x27 x28
      = Cert.EdgeMlp.logits (Cert.ReferenceIdeal.Read.val_main_v123 (F := Ideal) x0 x1 x2 x3 x4 x5 x6 x7 x8 x9 x10 x11 x12 x13 x14 x15 x16 x17 x18 x19 x20 x21 x22) x23 x24 x25 x26 x27 x28 := by
  apply Cert.EdgeMlp.ext_ix3
  intro b i j
  rw [Cert.EdgeMlp.logits_apply]
  exact logit_apply x0 x1 x2 x3 x4 x5 x6 x7 x8 x9 x10 x11 x12 x13 x14 x15 x16 x17 x18 x19 x20 x21 x22 x23 x24 x25 x26 x27 x28 b i j

/-- The reference's result is `upperSym` of its logits: the same three array operations. -/
theorem ref_result (x0 : (⟨S4096x128, .f32⟩ : BufTy).Contents (Elt Ideal)) (x1 : (⟨S16x16, .f32⟩ : BufTy).Contents (Elt Ideal)) (x2 : (⟨S2x65536, .i32⟩ : BufTy).Contents (Elt Ideal)) (x3 : (⟨S4096, .i32⟩ : BufTy).Contents (Elt Ideal)) (x4 : (⟨S256x128, .f32⟩ : BufTy).Contents (Elt Ideal)) (x5 : (⟨S256, .f32⟩ : BufTy).Contents (Elt Ideal)) (x6 : (⟨S256x128, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256, .f32⟩ : BufTy).Contents (Elt Ideal)) (x15 : (⟨S256x256, .f32⟩ : BufTy).Contents (Elt Ideal)) (x16 : (⟨S256, .f32⟩ : BufTy).Contents (Elt Ideal)) (x17 : (⟨S64x256, .f32⟩ : BufTy).Contents (Elt Ideal)) (x18 : (⟨S64, .f32⟩ : BufTy).Contents (Elt Ideal)) (x19 : (⟨S512x80, .f32⟩ : BufTy).Contents (Elt Ideal)) (x20 : (⟨S512, .f32⟩ : BufTy).Contents (Elt Ideal)) (x21 : (⟨S16384x512, .f32⟩ : BufTy).Contents (Elt Ideal)) (x22 : (⟨S16384, .f32⟩ : BufTy).Contents (Elt Ideal)) (x23 : (⟨S512x256, .f32⟩ : BufTy).Contents (Elt Ideal)) (x24 : (⟨S512, .f32⟩ : BufTy).Contents (Elt Ideal)) (x25 : (⟨S512x512, .f32⟩ : BufTy).Contents (Elt Ideal)) (x26 : (⟨S512, .f32⟩ : BufTy).Contents (Elt Ideal)) (x27 : (⟨S1x512, .f32⟩ : BufTy).Contents (Elt Ideal)) (x28 : (⟨S1, .f32⟩ : BufTy).Contents (Elt Ideal)) :
    Cert.ReferenceIdeal.Read.val_main_v146 (F := Ideal) x0 x1 x2 x3 x4 x5 x6 x7 x8 x9 x10 x11 x12 x13 x14 x15 x16 x17 x18 x19 x20 x21 x22 x23 x24 x25 x26 x27 x28
      = Cert.EdgeMlp.upperSym bcast_S_S128x128 bcast_S128x128_S16x128x128_1_2 bcast_S_S16x128x128 transposes_S16x128x128_S16x128x128_0_2_1
          (Cert.ReferenceIdeal.Read.val_main_v143 (F := Ideal) x0 x1 x2 x3 x4 x5 x6 x7 x8 x9 x10 x11 x12 x13 x14 x15 x16 x17 x18 x19 x20 x21 x22 x23 x24 x25 x26 x27 x28) := by
  unfold val_main_v146 val_main_v145 val_main_v144 val_main_call6_v6 val_main_call6_cst val_main_call6_v5 val_main_call6_v4
    val_main_call6_v3 val_main_call6_v2 val_main_call6_v1 val_main_call6_c val_main_call6_v0 Cert.EdgeMlp.upperSym
  generalize val_main_v143 (F := Ideal) x0 x1 x2 x3 x4 x5 x6 x7 x8 x9 x10 x11 x12 x13 x14 x15 x16 x17 x18 x19 x20 x21 x22 x23 x24 x25 x26 x27 x28 = L
  rfl

end Cert.ReferenceIdeal.EdgeMlp

end
-- ==== Proof.lean ====
/-
  The certificate of the pairwise edge-scoring kernel against its plain array-program reference.

  Both programs first compute the same node embeddings `E` (`[16 graphs, 128 nodes, 128 channels]`) by the same 146 array
  operations of their 23 leading arguments, and both end with the same last stretch: keep the logits strictly above the
  diagonal of each graph's matrix and add the mirror image (`upperSym`).  In between, each computes for every graph `b`
  and ordered pair of nodes `(i, j)` the logit of a three-layer perceptron applied to the 256 pair features
  (node `i`'s channels, then node `j`'s): the reference by three contractions over arrays indexed `[b, i, j, ·]`, the kernel
  on a 16 × 8 grid, one block of 16 query nodes against all 128 key nodes at a time, with its weights narrowed to bf16.
  At the ideal instance a change of float format is the identity and a block matrix product into a zero accumulator is
  the plain sum of products, so both sides are the specification's `logits E w₁ b₁ w₂ b₂ w₃ b₃` (module `Spec`); the only law
  used to join them is commutativity of multiplication on the extended reals, inside each sum, which holds at the
  infinities too — the precondition is never opened.

  Kernel side: the result buffer is `upperSym` of the region's output array (`KernelTail`); that array is the
  specification's logits of the embeddings as the region finds them (`Rows`, `Entry`, `Region`); those embeddings are the
  reference's stage for them, applied to the launch contents of the arguments (`Prefix`).
  Reference side: the run gives the result as its last stage applied to the arguments' launch contents (`RefRun`, over the
  stages of `RefRead`); that stage is `upperSym` of the logits stage, which is the specification's logits of the embeddings stage (`RefSide`).
  The two runs start from memories that agree on the arguments, so the two values are one term.
-/
import proofs.«181565_j26508538151540_1_alg».proof.Defs
import proofs.«181565_j26508538151540_1_alg».proof.Proof.Gen.Kernel
import proofs.«181565_j26508538151540_1_alg».proof.Proof.Gen.Kernel.Skeleton
import proofs.«181565_j26508538151540_1_alg».proof.Proof.Gen.Kernel.Launch
import proofs.«181565_j26508538151540_1_alg».proof.Proof.Gen.Kernel.Points
import proofs.«181565_j26508538151540_1_alg».proof.Proof.Gen.Kernel.Frame
import proofs.«181565_j26508538151540_1_alg».proof.Proof.Gen.KernelIdeal
import proofs.«181565_j26508538151540_1_alg».proof.Proof.Gen.KernelIdeal.Skeleton
import proofs.«181565_j26508538151540_1_alg».proof.Proof.Gen.KernelIdeal.Launch
import proofs.«181565_j26508538151540_1_alg».proof.Proof.Gen.KernelIdeal.Points
import proofs.«181565_j26508538151540_1_alg».proof.Proof.Gen.KernelIdeal.Frame
import proofs.«181565_j26508538151540_1_alg».proof.Proof.Gen.ReferenceIdeal
import proofs.«181565_j26508538151540_1_alg».proof.Proof.Gen.Pre_finite_inputs
import proofs.«181565_j26508538151540_1_alg».proof.Proof.RefRead
import proofs.«181565_j26508538151540_1_alg».proof.Proof.RefRun
import proofs.«181565_j26508538151540_1_alg».proof.Proof.Spec
import proofs.«181565_j26508538151540_1_alg».proof.Proof.Region
import proofs.«181565_j26508538151540_1_alg».proof.Proof.KernelTail
import proofs.«181565_j26508538151540_1_alg».proof.Proof.Prefix
import proofs.«181565_j26508538151540_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing, so there is nothing to preserve. -/
theorem preserves : Cert.preserves_Kernel_KernelIdeal := trivial

/-- The kernel program's result as a function of the launch contents of its arguments. -/
theorem kernel_result (m : (ℓ : Loc Cert.KernelIdeal.nD Cert.KernelIdeal.τ Cert.KernelIdeal.sig) → Buf (Elt Ideal) ℓ)
    (c : Dev Cert.KernelIdeal.nD) :
    (Pipeline.afterTail₀ Cert.KernelIdeal.cfgs (Cert.KernelIdeal.Gen.dats (F := Ideal) m) 0 (Cert.KernelIdeal.Gen.V0 m)
        [Cert.KernelIdeal.Gen.hostOps1, Cert.KernelIdeal.Gen.hostOps1_1] c Cert.KernelIdeal.main_v136 : FVec Ideal Cert.EdgeMlp.SEmb .f32)
      = Cert.EdgeMlp.upperSym Cert.KernelIdeal.Gen.bcast_S_S128x128 Cert.KernelIdeal.Gen.bcast_S128x128_S16x128x128_1_2
          Cert.KernelIdeal.Gen.bcast_S_S16x128x128 Cert.KernelIdeal.Gen.transposes_S16x128x128_S16x128x128_0_2_1
          (Cert.EdgeMlp.logits
            (Cert.ReferenceIdeal.Read.val_main_v123 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)))
            (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) := by
  rw [Cert.KernelIdeal.EdgeMlp.tail_eq m c, Cert.KernelIdeal.EdgeMlp.region_eq m c]
  show Cert.EdgeMlp.upperSym _ _ _ _ (Cert.EdgeMlp.logits (Cert.KernelIdeal.Gen.V m c Cert.KernelIdeal.main_v123 : FVec Ideal (⟨3, ![16, 128, 128]⟩ : Shape) .f32) _ _ _ _ _ _) = _
  rw [Cert.KernelIdeal.EdgeMlp.prefix_eq m c]

/-- From memories agreeing on the arguments both idealized programs run and end with the same result. -/
theorem algebraic : Cert.algebraic_KernelIdeal_ReferenceIdeal := by
  intro m ρ m' ρ' _ hagree
  refine ⟨_, Cert.KernelIdeal.EdgeMlp.run_value m ρ _ (fun c => kernel_result m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.EdgeMlp.ref_result, Cert.ReferenceIdeal.EdgeMlp.ref_logits]
  obtain ⟨h0, h1, h2, h3, h4, h5, h6, h7, h8, h9, h10, h11, h12, h13, h14, h15, h16, h17, h18, h19, h20, h21, h22, h23, h24, h25, h26, h27, h28⟩ := hagree c
  rw [h0, h1, h2, h3, h4, h5, h6, h7, h8, h9, h10, h11, h12, h13, h14, h15, h16, h17, h18, h19, h20, h21, h22, h23, h24, h25, h26, h27, h28]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
